-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S200x10000 : Shape := ⟨2, ![200, 10000]⟩
abbrev S200x16 : Shape := ⟨2, ![200, 16]⟩
abbrev S200 : Shape := ⟨1, ![200]⟩
abbrev S200x1 : Shape := ⟨2, ![200, 1]⟩

abbrev nBuf : Space → Nat
  | .hbm => 10
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .hbm, ⟨9, _⟩ => ⟨S10000x16, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x16, .f32⟩
  | .local _ .vmem, ⟨4, _⟩ => ⟨S1x16, .f32⟩
  | .local _ .vmem, ⟨5, _⟩ => ⟨S16x16, .f32⟩
  | .local _ .vmem, ⟨6, _⟩ => ⟨S1x16, .f32⟩
  | .local _ .vmem, ⟨7, _⟩ => ⟨S200x16, .f32⟩
  | .local _ .vmem, ⟨8, _⟩ => ⟨S200x16, .f32⟩
  | .local _ .vmem, ⟨9, _⟩ => ⟨S200x16, .f32⟩
  | .local _ .vmem, ⟨10, _⟩ => ⟨S200x16, .f32⟩
  | .local _ .vmem, ⟨11, _⟩ => ⟨S10000x16, .f32⟩
  | .local _ .vmem, ⟨12, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c200_i32 : BitVec 32 := 200#32
  let v23 : BitVec 32 := Scalar.muli arg1 c200_i32
  let v24 : Index := Scalar.indexCast v23
  let c0_16 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c49_i32 : BitVec 32 := 49#32
  let v1 : BitVec 32 := Scalar.subi c49_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c49_i32 : BitVec 32 := 49#32
  let v1 : BitVec 32 := Scalar.subi c49_i32 v0
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.subi c49_i32 arg1
  let v1 : BitVec 32 := Scalar.muli arg0 v0
  let v2 : BitVec 32 := Scalar.addi arg1 v1
  let c0_i32 : BitVec 32 := 0#32
  let c0_i32_0 : BitVec 32 := 0#32
  ![v2.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S200x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S200x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S200x10000_S200x10000_0_0 : ∀ a, (![0, 0] : Fin 2 → Nat) a + S200x10000.size a ≤ S200x10000.size a
  h_S200x10000 : 0 < S200x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S200x16_S200x16_0_0 : ∀ a, (![0, 0] : Fin 2 → Nat) a + S200x16.size a ≤ S200x16.size a
  h_S200x16 : 0 < S200x16.numel
  inb_S16x16_S16x16_0_0 : ∀ a, (![0, 0] : Fin 2 → Nat) a + S16x16.size a ≤ S16x16.size a
  h_S16x16 : 0 < S16x16.numel
  shapeCasts_S200x16_S200x16 : S200x16.ShapeCasts S200x16
  reduces_S200x16_S200 : S200x16.Reduces [1] S200
  shapeCasts_S200_S200x1 : S200.ShapeCasts S200x1
  broadcasts_S200x1_S200x16 : S200x1.Broadcasts S200x16
  dot_S10000x128_S128x16_S10000x16_1_0_0_1_n_n_wf : DotDims.WF S10000x128 S128x16 S10000x16 [1] [0] [0] [1] [] []
  dot_S200x10000_S10000x16_S200x16_1_0_0_1_n_n_wf : DotDims.WF S200x10000 S10000x16 S200x16 [1] [0] [0] [1] [] []
  dot_S200x16_S16x16_S200x16_1_0_0_1_n_n_wf : DotDims.WF S200x16 S16x16 S200x16 [1] [0] [0] [1] [] []
  hrank0 : 0 < grid0.rank
  k0_off1_inb : ∀ i : grid0.Coords, ∀ (k0_h2 : k0_cond2 i = 1#1), ∀ a, (k0_off1 i) a + S200x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x16.size a ≤ S10000x16.size a
  hwx0_6 : ∀ i : grid0.Coords, EltTy.bits .f32 = 32 ∨ (Rect.block (s := S10000x16) S200x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x16.size a ≤ S10000x16.size a
  hwx0_7 : ∀ i : grid0.Coords, EltTy.bits .f32 = 32 ∨ (Rect.block (s := S10000x16) S200x16.size (cc0_transform_7 i) (hinb0_7 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S200x16_S16x16_S200x16_1_0_0_1_n_n : DotDims S200x16 S16x16 S200x16 where
  lhsContracting := [1]
  rhsContracting := [0]
  lhsNonContracting := [0]
  rhsNonContracting := [1]
  lhsBatch := []
  rhsBatch := []
  wf := dot_S200x16_S16x16_S200x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S200x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S200x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x16, .f32⟩
  | .hbm, ⟨33, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.Kernel.Blocks.lean ====
/-
  The values the one pipelined call computes, block by block, as pure functions of the argument arrays as the call
  finds them. The grid has 100 points: at points 0 … 49 (first pass) point t reads rows [200 t, 200 t + 200) of the
  adjacency and produces that block of the hidden layer and of support₂ = hidden · W₂; at points 50 … 99 (second pass)
  point t reads rows of block 99 − t and produces that block of the log-softmax output. support₁ = X · W₁ is computed
  once, at point 0, and kept; support₂ is assembled row block by row block during the first pass and read whole
  during the second.
-/
import proofs.«150757_g22213570854912_cont_8to1_1494_15_alg».proof.Proof.Gen.Kernel.Frame
import proofs.«150757_g22213570854912_cont_8to1_1494_15_alg».proof.Proof.Gen.Kernel.Skeleton
import Idealize.ShloMosaic.Lib.ValueIdx

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Grid point number `n`. -/
abbrev pt (n : ℕ) (h : n < 100) : Fin cfg0.N := ⟨n, lt_of_lt_of_eq h N_0.symm⟩

theorem pt_val_lt (t : Fin cfg0.N) : t.val < 100 := lt_of_lt_of_eq t.isLt N_0

/-! ## Each window's block at a point, at its literal type -/

abbrev featB (c : Dev nD) (t : Fin cfg0.N) : Vec F S10000x128 .f32 := iblk m c 0 t
abbrev adjB (c : Dev nD) (t : Fin cfg0.N) : Vec F S200x10000 .f32 := iblk m c 1 t
abbrev w1B (c : Dev nD) (t : Fin cfg0.N) : Vec F S128x16 .f32 := iblk m c 2 t
abbrev b1B (c : Dev nD) (t : Fin cfg0.N) : Vec F S1x16 .f32 := iblk m c 3 t
abbrev w2B (c : Dev nD) (t : Fin cfg0.N) : Vec F S16x16 .f32 := iblk m c 4 t
abbrev b2B (c : Dev nD) (t : Fin cfg0.N) : Vec F S1x16 .f32 := iblk m c 5 t

/-! ## Coordinates of an index of a 10000 × 16 array -/

theorem row_lt (y : S10000x16.Idx) : (y 0).val < 10000 := (y 0).isLt

/-- The first-pass point whose block holds row `y 0`. -/
def rowPt (y : S10000x16.Idx) : Fin cfg0.N := pt ((y 0).val / 200) (by have := row_lt y; omega)
/-- The second-pass point whose block holds row `y 0`. -/
def outPt (y : S10000x16.Idx) : Fin cfg0.N := pt (99 - (y 0).val / 200) (by omega)
/-- The row's position inside its block of 200. -/
def rowIn (y : S10000x16.Idx) : Fin 200 := ⟨(y 0).val % 200, Nat.mod_lt _ (by norm_num)⟩
/-- The column. -/
def colOf (y : S10000x16.Idx) : Fin 16 := ⟨(y 1).val, (y 1).isLt⟩

/-! ## The blocks the body computes -/

/-- support₁ = X · W₁, from the blocks point 0 reads. -/
def sup1 (c : Dev nD) : Vec F S10000x16 .f32 := k0_pay1 (featB m c (pt 0 (by norm_num))) (w1B m c (pt 0 (by norm_num)))

/-- The hidden layer's block at a first-pass point. -/
def hidB (c : Dev nD) (t : Fin cfg0.N) : Vec F S200x16 .f32 := k0_pay2 (adjB m c t) (sup1 m c) (b1B m c t)

/-- support₂'s block at a first-pass point. -/
def sup2B (c : Dev nD) (t : Fin cfg0.N) : Vec F S200x16 .f32 := k0_pay3 (adjB m c t) (sup1 m c) (b1B m c t) (w2B m c t)

/-- support₂ whole: row by row, the block of the first-pass point that holds the row. -/
def sup2 (c : Dev nD) : Vec F S10000x16 .f32 := fun y => sup2B m c (rowPt y) (ix2 (rowIn y) (colOf y))

/-- The output's block at a second-pass point. -/
def outB (c : Dev nD) (t : Fin cfg0.N) : Vec F S200x16 .f32 := k0_pay4 (adjB m c t) (sup2 m c) (b2B m c t)

/-- The point whose hidden block the second output's staging buffer holds after point `t`: `t` itself during the
    first pass, point 49 from then on (the second pass stores nothing there). -/
def hidPt (t : Fin cfg0.N) : Fin cfg0.N := pt (min t.val 49) (by omega)

/-- An array with rows [o, o + 200) replaced by a block. -/
def putRows (d : Vec F S10000x16 .f32) (o : ℕ) (b : Vec F S200x16 .f32) : Vec F S10000x16 .f32 :=
  fun y => if h : o ≤ (y 0).val ∧ (y 0).val < o + 200 then b (ix2 ⟨(y 0).val - o, by omega⟩ (colOf y)) else d y

/-! ## The two result arrays after the call -/

/-- The hidden layer whole. -/
def hidArr (c : Dev nD) : Vec F S10000x16 .f32 := fun y => hidB m c (rowPt y) (ix2 (rowIn y) (colOf y))

/-- The log-softmax output whole. -/
def outArr (c : Dev nD) : Vec F S10000x16 .f32 := fun y => outB m c (outPt y) (ix2 (rowIn y) (colOf y))

end Cert.Kernel.Conv

end
-- ==== Proof.Kernel.Schedule.lean ====
/-
  The schedule of the one pipelined call over its grid of 2 × 50 = 100 points, in closed form: which branch of the
  body a point takes, where the two output windows are idle and where they are written back, where the slice store
  into support₂'s buffer lands, and which block each moving window is on. Every statement is decided over the grid.
-/
import proofs.«150757_g22213570854912_cont_8to1_1494_15_alg».proof.Proof.Gen.Kernel.Frame
import proofs.«150757_g22213570854912_cont_8to1_1494_15_alg».proof.Proof.Gen.Kernel.Skeleton
import Idealize.ShloMosaic.Lib.ValueIdx

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

/-! ## The body's three branches -/

/-- support₁ is computed at this point. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem condFirst_iff : ∀ t : Fin cfg0.N, condFirst (grid0.coords t) ↔ t.val = 0 :=
  (by decide +kernel : ∀ t : Fin grid0.N, condFirst (grid0.coords t) ↔ t.val = 0)

/-- The point is in the first pass. -/
abbrev condPass1 (i : grid0.Coords) : Prop := k0_cond2 i = 1#1
theorem condPass1_iff : ∀ t : Fin cfg0.N, condPass1 (grid0.coords t) ↔ t.val < 50 :=
  (by decide +kernel : ∀ t : Fin grid0.N, condPass1 (grid0.coords t) ↔ t.val < 50)

/-- The point is in the second pass. -/
abbrev condPass2 (i : grid0.Coords) : Prop := k0_cond3 i = 1#1
theorem condPass2_iff : ∀ t : Fin cfg0.N, condPass2 (grid0.coords t) ↔ 50 ≤ t.val :=
  (by decide +kernel : ∀ t : Fin grid0.N, condPass2 (grid0.coords t) ↔ 50 ≤ t.val)

/-! ## Idle points -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The log-softmax output's window is idle exactly during the first pass. -/
theorem idle_out_iff : ∀ t : Fin cfg0.N, cfg0.idle 6 (grid0.coords t) = true ↔ t.val < 50 :=
  (by decide +kernel : ∀ t : Fin grid0.N, cfg0.idle 6 (grid0.coords t) = true ↔ t.val < 50)
/-- The hidden layer's window is idle exactly during the second pass. -/
theorem idle_hid_iff : ∀ t : Fin cfg0.N, cfg0.idle 7 (grid0.coords t) = true ↔ 50 ≤ t.val :=
  (by decide +kernel : ∀ t : Fin grid0.N, cfg0.idle 7 (grid0.coords t) = true ↔ 50 ≤ t.val)

/-! ## Fetches and write-backs of the two output windows -/

theorem fetch_out : ∀ t : Fin cfg0.N, (cfg0.win 6).fetch t = false :=
  (by decide +kernel : ∀ t : Fin grid0.N, win0_6.fetch t = false)
theorem fetch_hid : ∀ t : Fin cfg0.N, (cfg0.win 7).fetch t = false :=
  (by decide +kernel : ∀ t : Fin grid0.N, win0_7.fetch t = false)
/-- The output's block is written back after every second-pass point (its block index moves at each). -/
theorem flush_out_iff : ∀ t : Fin cfg0.N, (cfg0.win 6).flush t = true ↔ 50 ≤ t.val :=
  (by decide +kernel : ∀ t : Fin grid0.N, win0_6.flush t = true ↔ 50 ≤ t.val)
/-- The hidden layer's block is written back after points 0 … 48, and block 49 only after the last point: its index
    stays 49 from point 49 on. -/
theorem flush_hid_iff : ∀ t : Fin cfg0.N, (cfg0.win 7).flush t = true ↔ (t.val < 49 ∨ t.val = 99) :=
  (by decide +kernel : ∀ t : Fin grid0.N, win0_7.flush t = true ↔ (t.val < 49 ∨ t.val = 99))

/-! ## The slice store into support₂'s buffer -/

/-- A first-pass point stores rows [200 t, 200 t + 200). -/
theorem off_rows : ∀ t : Fin cfg0.N, t.val < 50 → k0_off1 (grid0.coords t) = ![200 * t.val, 0] :=
  (by decide +kernel : ∀ t : Fin grid0.N, t.val < 50 → k0_off1 (grid0.coords t) = ![200 * t.val, 0])

/-! ## Block indices of the moving windows -/

/-- The adjacency's row block: `t` in the first pass, `99 − t` in the second. -/
theorem adj_index : ∀ t : Fin cfg0.N, win0_1.index t (0 : Fin 2) = (if t.val < 50 then t.val else 99 - t.val) ∧ win0_1.index t (1 : Fin 2) = 0 :=
  (by decide +kernel : ∀ t : Fin grid0.N, win0_1.index t (0 : Fin 2) = (if t.val < 50 then t.val else 99 - t.val) ∧ win0_1.index t (1 : Fin 2) = 0)
/-- The output's row block in the second pass: `99 − t`. -/
theorem out_index : ∀ t : Fin cfg0.N, 50 ≤ t.val → win0_6.index t (0 : Fin 2) = 99 - t.val ∧ win0_6.index t (1 : Fin 2) = 0 :=
  (by decide +kernel : ∀ t : Fin grid0.N, 50 ≤ t.val → win0_6.index t (0 : Fin 2) = 99 - t.val ∧ win0_6.index t (1 : Fin 2) = 0)
/-- The hidden layer's row block: `t` up to point 49, then 49. -/
theorem hid_index : ∀ t : Fin cfg0.N, win0_7.index t (0 : Fin 2) = min t.val 49 ∧ win0_7.index t (1 : Fin 2) = 0 :=
  (by decide +kernel : ∀ t : Fin grid0.N, win0_7.index t (0 : Fin 2) = min t.val 49 ∧ win0_7.index t (1 : Fin 2) = 0)
/-- The windows that never move sit on block 0. -/
theorem fixed_index : ∀ t : Fin cfg0.N, (∀ a, win0_0.index t a = 0) ∧ (∀ a, win0_2.index t a = 0) ∧ (∀ a, win0_3.index t a = 0) ∧ (∀ a, win0_4.index t a = 0) ∧ (∀ a, win0_5.index t a = 0) :=
  (by decide +kernel : ∀ t : Fin grid0.N, (∀ a, win0_0.index t a = 0) ∧ (∀ a, win0_2.index t a = 0) ∧ (∀ a, win0_3.index t a = 0) ∧ (∀ a, win0_4.index t a = 0) ∧ (∀ a, win0_5.index t a = 0))

end Cert.Kernel.Conv

end
-- ==== Proof.Kernel.Data.lean ====
/-
  The proof data of the pipelined call with both results NAMED. After the body at point t each input's staging
  buffer holds its block; the log-softmax output's holds that point's output block (second pass; during the first
  pass the window is idle and nothing is stated); the hidden layer's holds the hidden block of point min (t, 49):
  the second pass stores nothing there, so the buffer keeps point 49's block until the last point writes it back.
  Between points the first scratch buffer holds support₁ and the second agrees with support₂ on the rows the first
  pass has stored so far — all of them from point 50 on.
-/
import proofs.«150757_g22213570854912_cont_8to1_1494_15_alg».proof.Proof.Kernel.Blocks
import proofs.«150757_g22213570854912_cont_8to1_1494_15_alg».proof.Proof.Kernel.Schedule

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x16 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x16 .f32 := win0_7.stage (cfg0.slots t 7)
abbrev hs7 (t : Fin cfg0.N) : (ms7 t).IsWhole := hstage0_7 ((cfg0.slots t 7).cast nbuf0_7)
/-- support₁'s buffer and support₂'s buffer: the kernel's two scratch operands. -/
abbrev scr1 : Memref sig .tc .vmem S10000x16 .f32 := Memref.whole cc0_scratch0
abbrev scr2 : Memref sig .tc .vmem S10000x16 .f32 := Memref.whole cc0_scratch1

/-- The launch's invariant with the two scratch operands as memrefs owned at some contents. -/
theorem PhiA_eq (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

/-! ## The invariant between points -/

/-- How many rows of support₂ are stored before point `n`. -/
def rowsDone (n : ℕ) : ℕ := 200 * min n 50

/-- Before point 0 the scratch buffers hold anything; before point `n + 1` the first holds support₁ and the second
    agrees with support₂ on the rows stored so far. -/
def PhiT (c : Dev nD) : (n : ℕ) → n ≤ cfg0.N → sProp 𝕄
  | 0, _ => Pipeline.ΦA spec0 c
  | n + 1, _ => iprop(iprop(owns (c : Thread nD τ) scr1 fullShare (sup1 m c)
      ∗ (∃ d : Vec F S10000x16 .f32, ⌜∀ y : S10000x16.Idx, (y 0).val < rowsDone (n + 1) → d y = sup2 m c y⌝ ∗ owns (c : Thread nD τ) scr2 fullShare d))
      ∗ (∃ r, prngReg c r))

theorem PhiT_zero (c : Dev nD) (n : ℕ) (h : n ≤ cfg0.N) (hz : n = 0) : PhiT m c n h = Pipeline.ΦA spec0 c := by
  subst hz; rfl

theorem PhiT_succ (c : Dev nD) (n : ℕ) (hn : n + 1 ≤ cfg0.N) :
    PhiT m c (n + 1) hn = iprop(iprop(owns (c : Thread nD τ) scr1 fullShare (sup1 m c)
      ∗ (∃ d : Vec F S10000x16 .f32, ⌜∀ y : S10000x16.Idx, (y 0).val < rowsDone (n + 1) → d y = sup2 m c y⌝ ∗ owns (c : Thread nD τ) scr2 fullShare d))
      ∗ (∃ r, prngReg c r)) := rfl

theorem PhiT_pos (c : Dev nD) (n : ℕ) (h : n ≤ cfg0.N) (hz : n ≠ 0) :
    PhiT m c n h = iprop(iprop(owns (c : Thread nD τ) scr1 fullShare (sup1 m c)
      ∗ (∃ d : Vec F S10000x16 .f32, ⌜∀ y : S10000x16.Idx, (y 0).val < rowsDone n → d y = sup2 m c y⌝ ∗ owns (c : Thread nD τ) scr2 fullShare d))
      ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
    | ⟨7, _⟩ => hidB m c (hidPt t)
  Φ t := PhiT m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiT m c t.val (Nat.le_of_lt t.isLt) := by
  dsimp only [dats]; simp only [Fin.coe_castSucc]

theorem Phi_succ (c : Dev nD) (t : Fin cfg0.N) :
    (dats m 0 c).Φ t.succ = PhiT m c (t.val + 1) t.isLt := rfl

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = outB m c t := by dsimp only [dats]
theorem after_hid (c : Dev nD) (t : Fin cfg0.N) : (dats m 0 c).after 7 t = hidB m c (hidPt t) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-- Throughout the second pass the hidden layer's staging buffer holds point 49's block, whatever it held before the
    run: nothing fetches it, point 49 is not written back (the block index stays 49), and the second-pass points are
    idle for the window. -/
theorem before_hid_pass2 (c : Dev nD) (t : Fin cfg0.N) (ht : 50 ≤ t.val) (d) :
    (dats m 0 c).before 7 t d = hidB m c (pt 49 (by norm_num)) := by
  obtain ⟨k, hk⟩ : ∃ k, t.val = 50 + k := ⟨t.val - 50, by omega⟩
  clear ht
  induction k generalizing t with
  | zero =>
    have ht0 : t.val ≠ 0 := by omega
    rw [Dat.before_of_pos _ 7 t ht0 (fetch_hid t)]
    have hfl : (cfg0.win 7).flush ⟨t.val - 1, Nat.lt_of_le_of_lt (Nat.sub_le _ _) t.isLt⟩ = false :=
      Bool.eq_false_iff.mpr (fun h => by have := (flush_hid_iff _).mp h; dsimp only at this; omega)
    rw [hfl, if_neg Bool.false_ne_true]
    have hid : cfg0.idle 7 (cfg0.grid.coords ⟨t.val - 1, Nat.lt_of_le_of_lt (Nat.sub_le _ _) t.isLt⟩) = false :=
      Bool.eq_false_iff.mpr (fun h => by have := (idle_hid_iff _).mp h; dsimp only at this; omega)
    unfold Dat.left
    rw [hid]
    dsimp only
    unfold Dat.kept
    rw [Pipeline.fill_of_clip_none 7 _ (fun _ => rfl) d ((dats m 0 c).after 7 _), Window.fill_cut, after_hid]
    congr 1
    apply Fin.ext
    dsimp only [hidPt, pt]
    omega
  | succ k ih =>
    have ht0 : t.val ≠ 0 := by omega
    rw [Dat.before_of_pos _ 7 t ht0 (fetch_hid t)]
    have hfl : (cfg0.win 7).flush ⟨t.val - 1, Nat.lt_of_le_of_lt (Nat.sub_le _ _) t.isLt⟩ = false :=
      Bool.eq_false_iff.mpr (fun h => by have := (flush_hid_iff _).mp h; dsimp only at this; have := pt_val_lt t; omega)
    rw [hfl, if_neg Bool.false_ne_true]
    have hid : cfg0.idle 7 (cfg0.grid.coords ⟨t.val - 1, Nat.lt_of_le_of_lt (Nat.sub_le _ _) t.isLt⟩) = true :=
      (idle_hid_iff _).mpr (by dsimp only; omega)
    unfold Dat.left
    rw [hid]
    dsimp only
    exact ih _ (by dsimp only; omega)

end Cert.Kernel.Conv

end
-- ==== Proof.Kernel.RunMid.lean ====
/-
  The body at a first-pass point other than the first (points 1 … 49): from support₁ in the first scratch buffer it
  stores the point's hidden block whole into the second output's staging buffer and the point's block of support₂
  into rows [offset, offset + 200) of the second scratch buffer; everything else is handed back as it was found.
-/
import proofs.«150757_g22213570854912_cont_8to1_1494_15_alg».proof.Proof.Kernel.Blocks
import proofs.«150757_g22213570854912_cont_8to1_1494_15_alg».proof.Proof.Kernel.Schedule
import Idealize.ShloMosaic.Lib.WritesUnit
import Idealize.ShloMosaic.Lib.Pipeline.Value

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

theorem zero_off2 : (![0, 0] : Fin 2 → ℕ) = fun _ => 0 := by funext a; fin_cases a <;> rfl

/-- The rows a first-pass point stores, as offsets of a row block. -/
theorem off_eq_rows (i : grid0.Coords) : k0_off1 i = ![k0_off1 i 0, 0] := by
  funext a; fin_cases a <;> rfl

/-- What one store of rows [k0_off1 i 0, … + 200) leaves in a 10000 × 16 buffer that held `d`. -/
theorem read_rows_store (arg : Memref sig .tc .vmem S10000x16 .f32) (harg : arg.IsWhole) (i : grid0.Coords)
    (inb : ∀ a, (k0_off1 i) a + S200x16.size a ≤ S10000x16.size a) (d : Vec F S10000x16 .f32) (b : Vec F S200x16 .f32) :
    arg.view.read (Elt F) (arg.view.writes (Elt F) (harg.unread d) [⟨Rect.unit (s := S10000x16) (k0_off1 i) S200x16.size inb, b⟩])
      = putRows d (k0_off1 i 0) b := by
  funext y
  unfold putRows
  rw [View.read_writes_cons_rows (d := ![10000, 16]) arg.view (harg.unread d) inb b [] y (off_eq_rows i) (W := 200) rfl rfl]
  by_cases h : k0_off1 i 0 ≤ (y 0).val ∧ (y 0).val < k0_off1 i 0 + 200
  · -- a row of the stored block: the position within the block is the row minus the offset, and the column
    rw [dif_pos h, dif_pos h]
    congr 1
    funext a
    apply Fin.ext
    match a with
    | ⟨0, _⟩ => rfl
    | ⟨1, _⟩ => exact Nat.sub_zero _
  · -- any other row keeps what the buffer held
    rw [dif_neg h, dif_neg h]
    show arg.view.read (Elt F) (harg.unread d) y = d y
    rw [harg.read_unread d]

set_option maxHeartbeats 1000000 in
theorem run_mid (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole) (arg9 : Memref sig .tc .vmem S200x16 .f32) (harg9 : arg9.IsWhole) (arg10 : Memref sig .tc .vmem S10000x16 .f32) (harg10 : arg10.IsWhole) (arg11 : Memref sig .tc .vmem S10000x16 .f32) (harg11 : arg11.IsWhole)
    (hc0 : ¬condFirst i) (hc1 : condPass1 i) (hc2 : ¬condPass2 i)
    (x0 : Vec F S10000x128 .f32) (x1 : Vec F S200x10000 .f32) (x2 : Vec F S128x16 .f32) (x3 : Vec F S1x16 .f32) (x4 : Vec F S16x16 .f32) (x5 : Vec F S1x16 .f32) (y6 : Vec F S200x16 .f32) (xs0 xs1 : Vec F S10000x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (k0_pay2 x1 xs0 x3) ∗ owns (c : Thread nD τ) arg10 fullShare xs0 ∗ owns (c : Thread nD τ) arg11 fullShare (putRows xs1 (k0_off1 i 0) (k0_pay3 x1 xs0 x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_eq_canon _ _ _ (fun y => ⟨_, List.mem_singleton_self _, View.mem_set_unit_zero zero_off2 Facts₀.inb_S200x16_S200x16_0_0 y⟩), View.canon_unit_zero zero_off2]
    simp only [View.readAt_eq_ld, harg3.read_unread, harg10.read_unread, harg5.read_unread, View.ld_unit_zero (S := S200x10000) zero_off2, View.ld_unit_zero (S := S10000x16) zero_off2, View.ld_unit_zero (S := S1x16) zero_off2]
  isplitl [HS0]
  · iexists _; isplitr; · ipureintro; exact harg10.read_unread _
    iexact HS0
  iexists _; isplitr; swap; · iexact HS1
  ipureintro
  rw [read_rows_store arg11 harg11 i]
  simp only [View.readAt_eq_ld, harg3.read_unread, harg10.read_unread, harg5.read_unread, harg6.read_unread, View.ld_unit_zero (S := S200x10000) zero_off2, View.ld_unit_zero (S := S10000x16) zero_off2, View.ld_unit_zero (S := S1x16) zero_off2, View.ld_unit_zero (S := S16x16) zero_off2]

end Cert.Kernel.Conv

end
-- ==== Proof.Kernel.RunFirst.lean ====
/-
  The body at the first point: it computes support₁ = X · W₁ into the first scratch buffer, then, reading it back,
  does what every first-pass point does — the point's hidden block into the second output's staging buffer, the
  point's block of support₂ into its rows of the second scratch buffer.
-/
import proofs.«150757_g22213570854912_cont_8to1_1494_15_alg».proof.Proof.Kernel.RunMid

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

set_option maxHeartbeats 1000000 in
theorem run_first (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole) (arg9 : Memref sig .tc .vmem S200x16 .f32) (harg9 : arg9.IsWhole) (arg10 : Memref sig .tc .vmem S10000x16 .f32) (harg10 : arg10.IsWhole) (arg11 : Memref sig .tc .vmem S10000x16 .f32) (harg11 : arg11.IsWhole)
    (hc0 : condFirst i) (hc1 : condPass1 i) (hc2 : ¬condPass2 i)
    (x0 : Vec F S10000x128 .f32) (x1 : Vec F S200x10000 .f32) (x2 : Vec F S128x16 .f32) (x3 : Vec F S1x16 .f32) (x4 : Vec F S16x16 .f32) (x5 : Vec F S1x16 .f32) (y6 : Vec F S200x16 .f32) (xs1 : Vec F S10000x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ (∃ d, owns (c : Thread nD τ) arg10 fullShare d) ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (k0_pay2 x1 (k0_pay1 x0 x2) x3) ∗ owns (c : Thread nD τ) arg10 fullShare (k0_pay1 x0 x2) ∗ owns (c : Thread nD τ) arg11 fullShare (putRows xs1 (k0_off1 i 0) (k0_pay3 x1 (k0_pay1 x0 x2) x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs1
  sl_exec (disch := first | exact hc0 | exact hc1 | exact hc2)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · -- the hidden block, stored whole: its operands are the loads, the middle one support₁ read back
    iexists _; isplitr; swap; · iexact H7
    ipureintro
    rw [View.read_writes_eq_canon _ _ _ (fun y => ⟨_, List.mem_singleton_self _, View.mem_set_unit_zero zero_off2 Facts₀.inb_S200x16_S200x16_0_0 y⟩), View.canon_unit_zero zero_off2]
    simp only [View.readAt_eq_ld, harg2.read_unread, harg3.read_unread, harg4.read_unread, harg5.read_unread, View.readCov_unit_zero (S := S10000x16) _ zero_off2, View.ld_unit_zero (S := S10000x128) zero_off2, View.ld_unit_zero (S := S128x16) zero_off2, View.ld_unit_zero (S := S200x10000) zero_off2, View.ld_unit_zero (S := S1x16) zero_off2]
  isplitl [HS0]
  · -- support₁, stored whole over whatever the first scratch buffer held
    iexists _; isplitr; swap; · iexact HS0
    ipureintro
    rw [View.read_writes_eq_canon _ _ _ (fun y => ⟨_, List.mem_singleton_self _, View.mem_set_unit_zero zero_off2 Facts₀.inb_S10000x16_S10000x16_0_0 y⟩), View.canon_unit_zero zero_off2]
    simp only [View.readAt_eq_ld, harg2.read_unread, harg4.read_unread, View.ld_unit_zero (S := S10000x128) zero_off2, View.ld_unit_zero (S := S128x16) zero_off2]
  -- the block of support₂, stored into its rows of the second scratch buffer
  iexists _; isplitr; swap; · iexact HS1
  ipureintro
  rw [read_rows_store arg11 harg11 i]
  simp only [View.readAt_eq_ld, harg2.read_unread, harg3.read_unread, harg4.read_unread, harg5.read_unread, harg6.read_unread, View.readCov_unit_zero (S := S10000x16) _ zero_off2, View.ld_unit_zero (S := S10000x128) zero_off2, View.ld_unit_zero (S := S128x16) zero_off2, View.ld_unit_zero (S := S200x10000) zero_off2, View.ld_unit_zero (S := S1x16) zero_off2, View.ld_unit_zero (S := S16x16) zero_off2]

end Cert.Kernel.Conv

end
-- ==== Proof.Kernel.RunLast.lean ====
/-
  The body at a second-pass point (points 50 … 99): from support₂ whole in the second scratch buffer it stores the
  point's block of the log-softmax output into the first output's staging buffer; it stores nothing into the second
  output's staging buffer, which is handed back as it was found, like everything else.
-/
import proofs.«150757_g22213570854912_cont_8to1_1494_15_alg».proof.Proof.Kernel.RunMid

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

set_option maxHeartbeats 1000000 in
theorem run_last (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole) (arg9 : Memref sig .tc .vmem S200x16 .f32) (harg9 : arg9.IsWhole) (arg10 : Memref sig .tc .vmem S10000x16 .f32) (harg10 : arg10.IsWhole) (arg11 : Memref sig .tc .vmem S10000x16 .f32) (harg11 : arg11.IsWhole)
    (hc0 : ¬condFirst i) (hc1 : ¬condPass1 i) (hc2 : condPass2 i)
    (x0 : Vec F S10000x128 .f32) (x1 : Vec F S200x10000 .f32) (x2 : Vec F S128x16 .f32) (x3 : Vec F S1x16 .f32) (x4 : Vec F S16x16 .f32) (x5 : Vec F S1x16 .f32) (y7 : Vec F S200x16 .f32) (xs0 xs1 : Vec F S10000x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x1 xs1 x5) ∗ owns (c : Thread nD τ) arg9 fullShare y7 ∗ owns (c : Thread nD τ) arg10 fullShare xs0 ∗ owns (c : Thread nD τ) arg11 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero zero_off2 Facts₀.inb_S200x16_S200x16_0_0 y⟩), View.canon_unit_zero zero_off2]
    simp only [View.readAt_eq_ld, harg3.read_unread, harg11.read_unread, harg7.read_unread, View.ld_unit_zero (S := S200x10000) zero_off2, View.ld_unit_zero (S := S10000x16) zero_off2, View.ld_unit_zero (S := S1x16) zero_off2]
  isplitl [H7]
  · iexists _; isplitr; · ipureintro; exact harg9.read_unread _
    iexact H7
  isplitl [HS0]
  · iexists _; isplitr; · ipureintro; exact harg10.read_unread _
    iexact HS0
  iexists _; isplitr; · ipureintro; exact harg11.read_unread _
  iexact HS1

end Cert.Kernel.Conv

end
-- ==== Proof.Kernel.Body.lean ====
/-
  The body obligation of the pipelined call against the proof data with both results named, the run it gives, and
  the frame. A point is in one of three cases — the first point, another first-pass point, a second-pass point —
  and in each the body's run hands every buffer back as the proof data says: during the first pass the first
  output's window is idle and keeps what it held; during the second pass the second output's window is idle and
  keeps point 49's hidden block, which is what the last point's write-back then writes.
-/
import proofs.«150757_g22213570854912_cont_8to1_1494_15_alg».proof.Proof.Kernel.Data
import proofs.«150757_g22213570854912_cont_8to1_1494_15_alg».proof.Proof.Kernel.RunFirst
import proofs.«150757_g22213570854912_cont_8to1_1494_15_alg».proof.Proof.Kernel.RunLast

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Pure facts about the rows of support₂ and the blocks -/
/-- Storing block t of support₂ into rows [200 t, 200 t + 200) of an array that agrees with support₂ on the rows
    below 200 t gives one that agrees with it on the rows below 200 (t + 1). -/
private theorem putRows_sup2 (c : Dev nD) (t : Fin cfg0.N) (ht : t.val < 50) (d : Vec F S10000x16 .f32)
    (hd : ∀ y : S10000x16.Idx, (y 0).val < rowsDone t.val → d y = sup2 m c y) :
    ∀ y : S10000x16.Idx, (y 0).val < rowsDone (t.val + 1) → putRows d (200 * t.val) (sup2B m c t) y = sup2 m c y := by
  intro y hy
  unfold rowsDone at hy hd
  unfold putRows
  by_cases h : 200 * t.val ≤ (y 0).val ∧ (y 0).val < 200 * t.val + 200
  · rw [dif_pos h]
    unfold sup2
    have h1 : rowPt y = t := Fin.ext (by show (y 0).val / 200 = t.val; omega)
    have h2 : rowIn y = ⟨(y 0).val - 200 * t.val, by omega⟩ := Fin.ext (by show (y 0).val % 200 = (y 0).val - 200 * t.val; omega)
    rw [h1, h2]
  · rw [dif_neg h]
    exact hd y (by omega)

/-- From point 50 on every row of support₂ is stored: an array that agrees with it on the rows stored is support₂. -/
private theorem eq_sup2_of_done (c : Dev nD) (n : ℕ) (hn : 50 ≤ n) (d : Vec F S10000x16 .f32)
    (hd : ∀ y : S10000x16.Idx, (y 0).val < rowsDone n → d y = sup2 m c y) : d = sup2 m c := by
  funext y
  exact hd y (by have := row_lt y; unfold rowsDone; omega)

/-- In the second pass the number of rows stored no longer grows. -/
private theorem rowsDone_pass2 (n : ℕ) (hn : 50 ≤ n) : rowsDone (n + 1) = rowsDone n := by
  unfold rowsDone; omega

/-- support₁ is what the first point computes from the blocks it reads. -/
private theorem sup1_eq (c : Dev nD) (t : Fin cfg0.N) (ht : t.val = 0) : k0_pay1 (iblk m c 0 t) (iblk m c 2 t) = sup1 m c := by
  have h : t = pt 0 (by norm_num) := Fin.ext ht
  subst h; rfl

/-- In the first pass the hidden layer's staging buffer is on the point's own block. -/
private theorem hidPt_pass1 (t : Fin cfg0.N) (ht : t.val < 50) : hidPt t = t := Fin.ext (by show min t.val 49 = t.val; omega)

/-- From point 49 on it is on block 49. -/
private theorem hidPt_pass2 (t : Fin cfg0.N) (ht : 50 ≤ t.val) : hidPt t = pt 49 (by norm_num) := Fin.ext (by show min t.val 49 = 49; omega)

/-! ## What the body leaves in each window's buffer, case by case -/

private theorem leaves_in0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after_in0]
private theorem leaves_in1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after_in1]
private theorem leaves_in2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after_in2]
private theorem leaves_in3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after_in3]
private theorem leaves_in4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live4 t], after_in4]
private theorem leaves_in5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live5 t], after_in5]

/-- First pass: the first output's window is idle and not written back, so its buffer keeps what it held. -/
private theorem leaves_out_pass1 (c : Dev nD) (t : Fin cfg0.N) (ht : t.val < 50) :
    (dats m 0 c).leavesExact 6 t = iprop(∃ d, owns (c : Thread nD τ) (ms6 t) fullShare ((dats m 0 c).before 6 t d)) :=
  (dats m 0 c).leavesExact_idle 6 t ((idle_out_iff t).mpr ht)
    (Bool.eq_false_iff.mpr fun h => absurd ((flush_out_iff t).mp h) (by omega))

/-- Second pass: it holds the point's output block. -/
private theorem leaves_out_pass2 (c : Dev nD) (t : Fin cfg0.N) (ht : 50 ≤ t.val) :
    (dats m 0 c).leavesExact 6 t = owns (c : Thread nD τ) (ms6 t) fullShare (k0_pay4 (iblk m c 1 t) (sup2 m c) (iblk m c 5 t)) := by
  have hi : cfg0.idle 6 (grid0.coords t) = false := Bool.eq_false_iff.mpr fun h => absurd ((idle_out_iff t).mp h) (by omega)
  rw [show (dats m 0 c).leavesExact 6 t = owns (c : Thread nD τ) (ms6 t) fullShare ((dats m 0 c).after 6 t) from by
    unfold Dat.leavesExact; rw [hi], after_out]
  rfl

/-- First pass: the second output's buffer holds the point's hidden block. -/
private theorem leaves_hid_pass1 (c : Dev nD) (t : Fin cfg0.N) (ht : t.val < 50) :
    (dats m 0 c).leavesExact 7 t = owns (c : Thread nD τ) (ms7 t) fullShare (k0_pay2 (iblk m c 1 t) (sup1 m c) (iblk m c 3 t)) := by
  have hi : cfg0.idle 7 (grid0.coords t) = false := Bool.eq_false_iff.mpr fun h => absurd ((idle_hid_iff t).mp h) (by omega)
  rw [show (dats m 0 c).leavesExact 7 t = owns (c : Thread nD τ) (ms7 t) fullShare ((dats m 0 c).after 7 t) from by
    unfold Dat.leavesExact; rw [hi], after_hid, hidPt_pass1 t ht]
  rfl

/-- Second pass: the window is idle; the buffer, handed back as it was found, is what the obligation asks — what it
    held, or at the last point, where it is written back, point 49's hidden block, which is what it held. -/
private theorem leaves_hid_pass2 (c : Dev nD) (t : Fin cfg0.N) (ht : 50 ≤ t.val) (d) :
    owns (c : Thread nD τ) (ms7 t) fullShare ((dats m 0 c).before 7 t d) ⊢ (dats m 0 c).leavesExact 7 t := by
  have hi : cfg0.idle 7 (grid0.coords t) = true := (idle_hid_iff t).mpr ht
  by_cases h99 : t.val = 99
  · have hf : (cfg0.win 7).flush t = true := (flush_hid_iff t).mpr (Or.inr h99)
    rw [show (dats m 0 c).leavesExact 7 t = owns (c : Thread nD τ) (ms7 t) fullShare ((dats m 0 c).after 7 t) from by
      unfold Dat.leavesExact; rw [hi, hf], after_hid, hidPt_pass2 t ht, before_hid_pass2 m c t ht d]
  · have hf : (cfg0.win 7).flush t = false :=
      Bool.eq_false_iff.mpr fun h => absurd ((flush_hid_iff t).mp h) (by have := pt_val_lt t; omega)
    rw [(dats m 0 c).leavesExact_idle 7 t hi hf]
    iintro H; iexists d; iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- A first-pass point after the first: support₁ is in the first scratch buffer; the point's hidden block goes to
    the second output's buffer and its block of support₂ to its rows of the second scratch buffer. -/
private theorem sound_mid (c : Dev nD) (t : Fin cfg0.N) (h0 : t.val ≠ 0) (h1 : t.val < 50) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [Phi_succ, PhiT_succ, Phi_castSucc, PhiT_pos m c _ _ h0]
  rw [leaves_in0, leaves_in1, leaves_in2, leaves_in3, leaves_in4, leaves_in5, leaves_out_pass1 m c t h1, leaves_hid_pass1 m c t h1]
  have hoff : k0_off1 (grid0.coords t) 0 = 200 * t.val := by rw [off_rows t h1]; rfl
  iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_mid c (grid0.coords t) _ _ _ _ _ _ _ _ _ _ _ _ _ _ _ _ _ _ _ _
    (fun h => h0 ((condFirst_iff t).mp h)) ((condPass1_iff t).mpr h1) (fun h => absurd ((condPass2_iff t).mp h) (by omega))
    (iblk m c 0 t) (iblk m c 1 t) (iblk m c 2 t) (iblk m c 3 t) (iblk m c 4 t) (iblk m c 5 t)
    ((dats m 0 c).before 6 t d6) (sup1 m c) d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexists _; isplitr
      swap; · iexact HS1
      ipureintro; rw [hoff]; exact putRows_sup2 m c t h1 d hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 9600000 in
/-- The first point: the scratch buffers hold anything; the body computes support₁ into the first, then does what
    every first-pass point does. -/
private theorem sound_first (c : Dev nD) (t : Fin cfg0.N) (h0 : t.val = 0) :
    bodyPre m c t ⊢ wp frame (wpE (defs₀ (F := F)) Variants.none c none) Set.univ (bodyAt0 t) (fun _ => bodyPost m c t) := by
  have h1 : t.val < 50 := by omega
  unfold bodyPre bodyPost bodyAt0
  simp only [before_in0, before_in1, before_in2, before_in3, before_in4, before_in5]
  rw [show (dats m 0 c).owesAt () t.succ = (dats m 0 c).owesAt () t.castSucc from rfl]
  rw [Phi_succ, PhiT_succ, Phi_castSucc, PhiT_zero m c _ _ h0, PhiA_eq]
  rw [leaves_in0, leaves_in1, leaves_in2, leaves_in3, leaves_in4, leaves_in5, leaves_out_pass1 m c t h1, leaves_hid_pass1 m c t h1]
  rw [← sup1_eq m c t h0]
  have hoff : k0_off1 (grid0.coords t) 0 = 200 * t.val := by rw [off_rows t h1]; rfl
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ _ _
    ((condFirst_iff t).mpr h0) ((condPass1_iff t).mpr h1) (fun h => absurd ((condPass2_iff t).mp h) (by omega))
    (iblk m c 0 t) (iblk m c 1 t) (iblk m c 2 t) (iblk m c 3 t) (iblk m c 4 t) (iblk m c 5 t)
    ((dats m 0 c).before 6 t d6) e1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexists _; iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexists _; isplitr
      swap; · iexact HS1
      ipureintro; rw [hoff, sup1_eq m c t h0]
      exact putRows_sup2 m c t h1 e1 (fun y hy => by exfalso; rw [h0] at hy; unfold rowsDone at hy; omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 9600000 in
/-- A second-pass point: the second scratch buffer holds support₂ whole; the point's output block goes to the first
    output's buffer and everything else is handed back as it was found. -/
private theorem sound_last (c : Dev nD) (t : Fin cfg0.N) (h2 : 50 ≤ t.val) :
    bodyPre m c t ⊢ wp frame (wpE (defs₀ (F := F)) Variants.none c none) Set.univ (bodyAt0 t) (fun _ => bodyPost m c t) := by
  have h0 : t.val ≠ 0 := by omega
  unfold bodyPre bodyPost bodyAt0
  simp only [before_in0, before_in1, before_in2, before_in3, before_in4, before_in5]
  rw [show (dats m 0 c).owesAt () t.succ = (dats m 0 c).owesAt () t.castSucc from rfl]
  rw [Phi_succ, PhiT_succ, Phi_castSucc, PhiT_pos m c _ _ h0]
  rw [leaves_in0, leaves_in1, leaves_in2, leaves_in3, leaves_in4, leaves_in5, leaves_out_pass2 m c t h2]
  iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl := eq_sup2_of_done m c t.val h2 d hd
  iapply (run_last c (grid0.coords t) _ _ _ _ _ _ _ _ _ _ _ _ _ _ _ _ _ _ _ _
    (fun h => h0 ((condFirst_iff t).mp h)) (fun h => absurd ((condPass1_iff t).mp h) (by omega)) ((condPass2_iff t).mpr h2)
    (iblk m c 0 t) (iblk m c 1 t) (iblk m c 2 t) (iblk m c 3 t) (iblk m c 4 t) (iblk m c 5 t)
    ((dats m 0 c).before 7 t d7) (sup1 m c) (sup2 m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexists _; isplitr
      swap; · iexact HS1
      ipureintro; exact fun _ _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_hid_pass2 m c t h2 d7)
  iexact H7

/-- The body at any point: a point is the first, another first-pass point, or a second-pass point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h1 : t.val < 50
    · exact sound_mid m c t h0 h1
    · exact sound_last m c t (by omega)

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiT m c 0 (Nat.zero_le _) from rfl, PhiT_zero m c 0 _ rfl]
  try exact Idealize.SL.BI.Entails.refl _

/-- After the last point the invariant gives the launch's back: what the scratch buffers hold is forgotten. -/
theorem hout (c : Dev nD) : (dats m 0 c).Φ (Fin.last cfg0.N) ⊢ Pipeline.ΦA spec0 c := by
  have hN : (Fin.last cfg0.N).val ≠ 0 := by rw [Fin.val_last]; have : cfg0.N = 100 := N_0; omega
  rw [show (dats m 0 c).Φ (Fin.last cfg0.N) = PhiT m c (Fin.last cfg0.N).val (Nat.le_of_lt_succ (Fin.last cfg0.N).isLt) from rfl,
    PhiT_pos m c _ _ hN, PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of @main terminates, each array of the call ending at what the proof data computes
    and every other unscoped buffer at its contents when the call was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Conv

end
-- ==== Proof.KernelIdeal.Blocks.lean ====
/-
  The values the one pipelined call computes, block by block, as pure functions of the argument arrays as the call
  finds them. The grid has 100 points: at points 0 … 49 (first pass) point t reads rows [200 t, 200 t + 200) of the
  adjacency and produces that block of the hidden layer and of support₂ = hidden · W₂; at points 50 … 99 (second pass)
  point t reads rows of block 99 − t and produces that block of the log-softmax output. support₁ = X · W₁ is computed
  once, at point 0, and kept; support₂ is assembled row block by row block during the first pass and read whole
  during the second.
-/
import proofs.«150757_g22213570854912_cont_8to1_1494_15_alg».proof.Proof.Gen.KernelIdeal.Frame
import proofs.«150757_g22213570854912_cont_8to1_1494_15_alg».proof.Proof.Gen.KernelIdeal.Skeleton
import Idealize.ShloMosaic.Lib.ValueIdx

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Grid point number `n`. -/
abbrev pt (n : ℕ) (h : n < 100) : Fin cfg0.N := ⟨n, lt_of_lt_of_eq h N_0.symm⟩

theorem pt_val_lt (t : Fin cfg0.N) : t.val < 100 := lt_of_lt_of_eq t.isLt N_0

/-! ## Each window's block at a point, at its literal type -/

abbrev featB (c : Dev nD) (t : Fin cfg0.N) : Vec F S10000x128 .f32 := iblk m c 0 t
abbrev adjB (c : Dev nD) (t : Fin cfg0.N) : Vec F S200x10000 .f32 := iblk m c 1 t
abbrev w1B (c : Dev nD) (t : Fin cfg0.N) : Vec F S128x16 .f32 := iblk m c 2 t
abbrev b1B (c : Dev nD) (t : Fin cfg0.N) : Vec F S1x16 .f32 := iblk m c 3 t
abbrev w2B (c : Dev nD) (t : Fin cfg0.N) : Vec F S16x16 .f32 := iblk m c 4 t
abbrev b2B (c : Dev nD) (t : Fin cfg0.N) : Vec F S1x16 .f32 := iblk m c 5 t

/-! ## Coordinates of an index of a 10000 × 16 array -/

theorem row_lt (y : S10000x16.Idx) : (y 0).val < 10000 := (y 0).isLt

/-- The first-pass point whose block holds row `y 0`. -/
def rowPt (y : S10000x16.Idx) : Fin cfg0.N := pt ((y 0).val / 200) (by have := row_lt y; omega)
/-- The second-pass point whose block holds row `y 0`. -/
def outPt (y : S10000x16.Idx) : Fin cfg0.N := pt (99 - (y 0).val / 200) (by omega)
/-- The row's position inside its block of 200. -/
def rowIn (y : S10000x16.Idx) : Fin 200 := ⟨(y 0).val % 200, Nat.mod_lt _ (by norm_num)⟩
/-- The column. -/
def colOf (y : S10000x16.Idx) : Fin 16 := ⟨(y 1).val, (y 1).isLt⟩

/-! ## The blocks the body computes -/

/-- support₁ = X · W₁, from the blocks point 0 reads. -/
def sup1 (c : Dev nD) : Vec F S10000x16 .f32 := k0_pay1 (featB m c (pt 0 (by norm_num))) (w1B m c (pt 0 (by norm_num)))

/-- The hidden layer's block at a first-pass point. -/
def hidB (c : Dev nD) (t : Fin cfg0.N) : Vec F S200x16 .f32 := k0_pay2 (adjB m c t) (sup1 m c) (b1B m c t)

/-- support₂'s block at a first-pass point. -/
def sup2B (c : Dev nD) (t : Fin cfg0.N) : Vec F S200x16 .f32 := k0_pay3 (adjB m c t) (sup1 m c) (b1B m c t) (w2B m c t)

/-- support₂ whole: row by row, the block of the first-pass point that holds the row. -/
def sup2 (c : Dev nD) : Vec F S10000x16 .f32 := fun y => sup2B m c (rowPt y) (ix2 (rowIn y) (colOf y))

/-- The output's block at a second-pass point. -/
def outB (c : Dev nD) (t : Fin cfg0.N) : Vec F S200x16 .f32 := k0_pay4 (adjB m c t) (sup2 m c) (b2B m c t)

/-- The point whose hidden block the second output's staging buffer holds after point `t`: `t` itself during the
    first pass, point 49 from then on (the second pass stores nothing there). -/
def hidPt (t : Fin cfg0.N) : Fin cfg0.N := pt (min t.val 49) (by omega)

/-- An array with rows [o, o + 200) replaced by a block. -/
def putRows (d : Vec F S10000x16 .f32) (o : ℕ) (b : Vec F S200x16 .f32) : Vec F S10000x16 .f32 :=
  fun y => if h : o ≤ (y 0).val ∧ (y 0).val < o + 200 then b (ix2 ⟨(y 0).val - o, by omega⟩ (colOf y)) else d y

/-! ## The two result arrays after the call -/

/-- The hidden layer whole. -/
def hidArr (c : Dev nD) : Vec F S10000x16 .f32 := fun y => hidB m c (rowPt y) (ix2 (rowIn y) (colOf y))

/-- The log-softmax output whole. -/
def outArr (c : Dev nD) : Vec F S10000x16 .f32 := fun y => outB m c (outPt y) (ix2 (rowIn y) (colOf y))

end Cert.KernelIdeal.Conv

end
-- ==== Proof.KernelIdeal.Schedule.lean ====
/-
  The schedule of the one pipelined call over its grid of 2 × 50 = 100 points, in closed form: which branch of the
  body a point takes, where the two output windows are idle and where they are written back, where the slice store
  into support₂'s buffer lands, and which block each moving window is on. Every statement is decided over the grid.
-/
import proofs.«150757_g22213570854912_cont_8to1_1494_15_alg».proof.Proof.Gen.KernelIdeal.Frame
import proofs.«150757_g22213570854912_cont_8to1_1494_15_alg».proof.Proof.Gen.KernelIdeal.Skeleton
import Idealize.ShloMosaic.Lib.ValueIdx

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! ## The body's three branches -/

/-- support₁ is computed at this point. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem condFirst_iff : ∀ t : Fin cfg0.N, condFirst (grid0.coords t) ↔ t.val = 0 :=
  (by decide +kernel : ∀ t : Fin grid0.N, condFirst (grid0.coords t) ↔ t.val = 0)

/-- The point is in the first pass. -/
abbrev condPass1 (i : grid0.Coords) : Prop := k0_cond2 i = 1#1
theorem condPass1_iff : ∀ t : Fin cfg0.N, condPass1 (grid0.coords t) ↔ t.val < 50 :=
  (by decide +kernel : ∀ t : Fin grid0.N, condPass1 (grid0.coords t) ↔ t.val < 50)

/-- The point is in the second pass. -/
abbrev condPass2 (i : grid0.Coords) : Prop := k0_cond3 i = 1#1
theorem condPass2_iff : ∀ t : Fin cfg0.N, condPass2 (grid0.coords t) ↔ 50 ≤ t.val :=
  (by decide +kernel : ∀ t : Fin grid0.N, condPass2 (grid0.coords t) ↔ 50 ≤ t.val)

/-! ## Idle points -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The log-softmax output's window is idle exactly during the first pass. -/
theorem idle_out_iff : ∀ t : Fin cfg0.N, cfg0.idle 6 (grid0.coords t) = true ↔ t.val < 50 :=
  (by decide +kernel : ∀ t : Fin grid0.N, cfg0.idle 6 (grid0.coords t) = true ↔ t.val < 50)
/-- The hidden layer's window is idle exactly during the second pass. -/
theorem idle_hid_iff : ∀ t : Fin cfg0.N, cfg0.idle 7 (grid0.coords t) = true ↔ 50 ≤ t.val :=
  (by decide +kernel : ∀ t : Fin grid0.N, cfg0.idle 7 (grid0.coords t) = true ↔ 50 ≤ t.val)

/-! ## Fetches and write-backs of the two output windows -/

theorem fetch_out : ∀ t : Fin cfg0.N, (cfg0.win 6).fetch t = false :=
  (by decide +kernel : ∀ t : Fin grid0.N, win0_6.fetch t = false)
theorem fetch_hid : ∀ t : Fin cfg0.N, (cfg0.win 7).fetch t = false :=
  (by decide +kernel : ∀ t : Fin grid0.N, win0_7.fetch t = false)
/-- The output's block is written back after every second-pass point (its block index moves at each). -/
theorem flush_out_iff : ∀ t : Fin cfg0.N, (cfg0.win 6).flush t = true ↔ 50 ≤ t.val :=
  (by decide +kernel : ∀ t : Fin grid0.N, win0_6.flush t = true ↔ 50 ≤ t.val)
/-- The hidden layer's block is written back after points 0 … 48, and block 49 only after the last point: its index
    stays 49 from point 49 on. -/
theorem flush_hid_iff : ∀ t : Fin cfg0.N, (cfg0.win 7).flush t = true ↔ (t.val < 49 ∨ t.val = 99) :=
  (by decide +kernel : ∀ t : Fin grid0.N, win0_7.flush t = true ↔ (t.val < 49 ∨ t.val = 99))

/-! ## The slice store into support₂'s buffer -/

/-- A first-pass point stores rows [200 t, 200 t + 200). -/
theorem off_rows : ∀ t : Fin cfg0.N, t.val < 50 → k0_off1 (grid0.coords t) = ![200 * t.val, 0] :=
  (by decide +kernel : ∀ t : Fin grid0.N, t.val < 50 → k0_off1 (grid0.coords t) = ![200 * t.val, 0])

/-! ## Block indices of the moving windows -/

/-- The adjacency's row block: `t` in the first pass, `99 − t` in the second. -/
theorem adj_index : ∀ t : Fin cfg0.N, win0_1.index t (0 : Fin 2) = (if t.val < 50 then t.val else 99 - t.val) ∧ win0_1.index t (1 : Fin 2) = 0 :=
  (by decide +kernel : ∀ t : Fin grid0.N, win0_1.index t (0 : Fin 2) = (if t.val < 50 then t.val else 99 - t.val) ∧ win0_1.index t (1 : Fin 2) = 0)
/-- The output's row block in the second pass: `99 − t`. -/
theorem out_index : ∀ t : Fin cfg0.N, 50 ≤ t.val → win0_6.index t (0 : Fin 2) = 99 - t.val ∧ win0_6.index t (1 : Fin 2) = 0 :=
  (by decide +kernel : ∀ t : Fin grid0.N, 50 ≤ t.val → win0_6.index t (0 : Fin 2) = 99 - t.val ∧ win0_6.index t (1 : Fin 2) = 0)
/-- The hidden layer's row block: `t` up to point 49, then 49. -/
theorem hid_index : ∀ t : Fin cfg0.N, win0_7.index t (0 : Fin 2) = min t.val 49 ∧ win0_7.index t (1 : Fin 2) = 0 :=
  (by decide +kernel : ∀ t : Fin grid0.N, win0_7.index t (0 : Fin 2) = min t.val 49 ∧ win0_7.index t (1 : Fin 2) = 0)
/-- The windows that never move sit on block 0. -/
theorem fixed_index : ∀ t : Fin cfg0.N, (∀ a, win0_0.index t a = 0) ∧ (∀ a, win0_2.index t a = 0) ∧ (∀ a, win0_3.index t a = 0) ∧ (∀ a, win0_4.index t a = 0) ∧ (∀ a, win0_5.index t a = 0) :=
  (by decide +kernel : ∀ t : Fin grid0.N, (∀ a, win0_0.index t a = 0) ∧ (∀ a, win0_2.index t a = 0) ∧ (∀ a, win0_3.index t a = 0) ∧ (∀ a, win0_4.index t a = 0) ∧ (∀ a, win0_5.index t a = 0))

end Cert.KernelIdeal.Conv

end
-- ==== Proof.KernelIdeal.Data.lean ====
/-
  The proof data of the pipelined call with both results NAMED. After the body at point t each input's staging
  buffer holds its block; the log-softmax output's holds that point's output block (second pass; during the first
  pass the window is idle and nothing is stated); the hidden layer's holds the hidden block of point min (t, 49):
  the second pass stores nothing there, so the buffer keeps point 49's block until the last point writes it back.
  Between points the first scratch buffer holds support₁ and the second agrees with support₂ on the rows the first
  pass has stored so far — all of them from point 50 on.
-/
import proofs.«150757_g22213570854912_cont_8to1_1494_15_alg».proof.Proof.KernelIdeal.Blocks
import proofs.«150757_g22213570854912_cont_8to1_1494_15_alg».proof.Proof.KernelIdeal.Schedule

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x16 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x16 .f32 := win0_7.stage (cfg0.slots t 7)
abbrev hs7 (t : Fin cfg0.N) : (ms7 t).IsWhole := hstage0_7 ((cfg0.slots t 7).cast nbuf0_7)
/-- support₁'s buffer and support₂'s buffer: the kernel's two scratch operands. -/
abbrev scr1 : Memref sig .tc .vmem S10000x16 .f32 := Memref.whole cc0_scratch0
abbrev scr2 : Memref sig .tc .vmem S10000x16 .f32 := Memref.whole cc0_scratch1

/-- The launch's invariant with the two scratch operands as memrefs owned at some contents. -/
theorem PhiA_eq (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

/-! ## The invariant between points -/

/-- How many rows of support₂ are stored before point `n`. -/
def rowsDone (n : ℕ) : ℕ := 200 * min n 50

/-- Before point 0 the scratch buffers hold anything; before point `n + 1` the first holds support₁ and the second
    agrees with support₂ on the rows stored so far. -/
def PhiT (c : Dev nD) : (n : ℕ) → n ≤ cfg0.N → sProp 𝕄
  | 0, _ => Pipeline.ΦA spec0 c
  | n + 1, _ => iprop(iprop(owns (c : Thread nD τ) scr1 fullShare (sup1 m c)
      ∗ (∃ d : Vec F S10000x16 .f32, ⌜∀ y : S10000x16.Idx, (y 0).val < rowsDone (n + 1) → d y = sup2 m c y⌝ ∗ owns (c : Thread nD τ) scr2 fullShare d))
      ∗ (∃ r, prngReg c r))

theorem PhiT_zero (c : Dev nD) (n : ℕ) (h : n ≤ cfg0.N) (hz : n = 0) : PhiT m c n h = Pipeline.ΦA spec0 c := by
  subst hz; rfl

theorem PhiT_succ (c : Dev nD) (n : ℕ) (hn : n + 1 ≤ cfg0.N) :
    PhiT m c (n + 1) hn = iprop(iprop(owns (c : Thread nD τ) scr1 fullShare (sup1 m c)
      ∗ (∃ d : Vec F S10000x16 .f32, ⌜∀ y : S10000x16.Idx, (y 0).val < rowsDone (n + 1) → d y = sup2 m c y⌝ ∗ owns (c : Thread nD τ) scr2 fullShare d))
      ∗ (∃ r, prngReg c r)) := rfl

theorem PhiT_pos (c : Dev nD) (n : ℕ) (h : n ≤ cfg0.N) (hz : n ≠ 0) :
    PhiT m c n h = iprop(iprop(owns (c : Thread nD τ) scr1 fullShare (sup1 m c)
      ∗ (∃ d : Vec F S10000x16 .f32, ⌜∀ y : S10000x16.Idx, (y 0).val < rowsDone n → d y = sup2 m c y⌝ ∗ owns (c : Thread nD τ) scr2 fullShare d))
      ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
    | ⟨7, _⟩ => hidB m c (hidPt t)
  Φ t := PhiT m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiT m c t.val (Nat.le_of_lt t.isLt) := by
  dsimp only [dats]; simp only [Fin.coe_castSucc]

theorem Phi_succ (c : Dev nD) (t : Fin cfg0.N) :
    (dats m 0 c).Φ t.succ = PhiT m c (t.val + 1) t.isLt := rfl

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = outB m c t := by dsimp only [dats]
theorem after_hid (c : Dev nD) (t : Fin cfg0.N) : (dats m 0 c).after 7 t = hidB m c (hidPt t) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-- Throughout the second pass the hidden layer's staging buffer holds point 49's block, whatever it held before the
    run: nothing fetches it, point 49 is not written back (the block index stays 49), and the second-pass points are
    idle for the window. -/
theorem before_hid_pass2 (c : Dev nD) (t : Fin cfg0.N) (ht : 50 ≤ t.val) (d) :
    (dats m 0 c).before 7 t d = hidB m c (pt 49 (by norm_num)) := by
  obtain ⟨k, hk⟩ : ∃ k, t.val = 50 + k := ⟨t.val - 50, by omega⟩
  clear ht
  induction k generalizing t with
  | zero =>
    have ht0 : t.val ≠ 0 := by omega
    rw [Dat.before_of_pos _ 7 t ht0 (fetch_hid t)]
    have hfl : (cfg0.win 7).flush ⟨t.val - 1, Nat.lt_of_le_of_lt (Nat.sub_le _ _) t.isLt⟩ = false :=
      Bool.eq_false_iff.mpr (fun h => by have := (flush_hid_iff _).mp h; dsimp only at this; omega)
    rw [hfl, if_neg Bool.false_ne_true]
    have hid : cfg0.idle 7 (cfg0.grid.coords ⟨t.val - 1, Nat.lt_of_le_of_lt (Nat.sub_le _ _) t.isLt⟩) = false :=
      Bool.eq_false_iff.mpr (fun h => by have := (idle_hid_iff _).mp h; dsimp only at this; omega)
    unfold Dat.left
    rw [hid]
    dsimp only
    unfold Dat.kept
    rw [Pipeline.fill_of_clip_none 7 _ (fun _ => rfl) d ((dats m 0 c).after 7 _), Window.fill_cut, after_hid]
    congr 1
    apply Fin.ext
    dsimp only [hidPt, pt]
    omega
  | succ k ih =>
    have ht0 : t.val ≠ 0 := by omega
    rw [Dat.before_of_pos _ 7 t ht0 (fetch_hid t)]
    have hfl : (cfg0.win 7).flush ⟨t.val - 1, Nat.lt_of_le_of_lt (Nat.sub_le _ _) t.isLt⟩ = false :=
      Bool.eq_false_iff.mpr (fun h => by have := (flush_hid_iff _).mp h; dsimp only at this; have := pt_val_lt t; omega)
    rw [hfl, if_neg Bool.false_ne_true]
    have hid : cfg0.idle 7 (cfg0.grid.coords ⟨t.val - 1, Nat.lt_of_le_of_lt (Nat.sub_le _ _) t.isLt⟩) = true :=
      (idle_hid_iff _).mpr (by dsimp only; omega)
    unfold Dat.left
    rw [hid]
    dsimp only
    exact ih _ (by dsimp only; omega)

end Cert.KernelIdeal.Conv

end
-- ==== Proof.KernelIdeal.RunMid.lean ====
/-
  The body at a first-pass point other than the first (points 1 … 49): from support₁ in the first scratch buffer it
  stores the point's hidden block whole into the second output's staging buffer and the point's block of support₂
  into rows [offset, offset + 200) of the second scratch buffer; everything else is handed back as it was found.
-/
import proofs.«150757_g22213570854912_cont_8to1_1494_15_alg».proof.Proof.KernelIdeal.Blocks
import proofs.«150757_g22213570854912_cont_8to1_1494_15_alg».proof.Proof.KernelIdeal.Schedule
import Idealize.ShloMosaic.Lib.WritesUnit
import Idealize.ShloMosaic.Lib.Pipeline.Value

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

theorem zero_off2 : (![0, 0] : Fin 2 → ℕ) = fun _ => 0 := by funext a; fin_cases a <;> rfl

/-- The rows a first-pass point stores, as offsets of a row block. -/
theorem off_eq_rows (i : grid0.Coords) : k0_off1 i = ![k0_off1 i 0, 0] := by
  funext a; fin_cases a <;> rfl

/-- What one store of rows [k0_off1 i 0, … + 200) leaves in a 10000 × 16 buffer that held `d`. -/
theorem read_rows_store (arg : Memref sig .tc .vmem S10000x16 .f32) (harg : arg.IsWhole) (i : grid0.Coords)
    (inb : ∀ a, (k0_off1 i) a + S200x16.size a ≤ S10000x16.size a) (d : Vec F S10000x16 .f32) (b : Vec F S200x16 .f32) :
    arg.view.read (Elt F) (arg.view.writes (Elt F) (harg.unread d) [⟨Rect.unit (s := S10000x16) (k0_off1 i) S200x16.size inb, b⟩])
      = putRows d (k0_off1 i 0) b := by
  funext y
  unfold putRows
  rw [View.read_writes_cons_rows (d := ![10000, 16]) arg.view (harg.unread d) inb b [] y (off_eq_rows i) (W := 200) rfl rfl]
  by_cases h : k0_off1 i 0 ≤ (y 0).val ∧ (y 0).val < k0_off1 i 0 + 200
  · -- a row of the stored block: the position within the block is the row minus the offset, and the column
    rw [dif_pos h, dif_pos h]
    congr 1
    funext a
    apply Fin.ext
    match a with
    | ⟨0, _⟩ => rfl
    | ⟨1, _⟩ => exact Nat.sub_zero _
  · -- any other row keeps what the buffer held
    rw [dif_neg h, dif_neg h]
    show arg.view.read (Elt F) (harg.unread d) y = d y
    rw [harg.read_unread d]

set_option maxHeartbeats 1000000 in
theorem run_mid (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole) (arg9 : Memref sig .tc .vmem S200x16 .f32) (harg9 : arg9.IsWhole) (arg10 : Memref sig .tc .vmem S10000x16 .f32) (harg10 : arg10.IsWhole) (arg11 : Memref sig .tc .vmem S10000x16 .f32) (harg11 : arg11.IsWhole)
    (hc0 : ¬condFirst i) (hc1 : condPass1 i) (hc2 : ¬condPass2 i)
    (x0 : Vec F S10000x128 .f32) (x1 : Vec F S200x10000 .f32) (x2 : Vec F S128x16 .f32) (x3 : Vec F S1x16 .f32) (x4 : Vec F S16x16 .f32) (x5 : Vec F S1x16 .f32) (y6 : Vec F S200x16 .f32) (xs0 xs1 : Vec F S10000x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (k0_pay2 x1 xs0 x3) ∗ owns (c : Thread nD τ) arg10 fullShare xs0 ∗ owns (c : Thread nD τ) arg11 fullShare (putRows xs1 (k0_off1 i 0) (k0_pay3 x1 xs0 x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_eq_canon _ _ _ (fun y => ⟨_, List.mem_singleton_self _, View.mem_set_unit_zero zero_off2 Facts₀.inb_S200x16_S200x16_0_0 y⟩), View.canon_unit_zero zero_off2]
    simp only [View.readAt_eq_ld, harg3.read_unread, harg10.read_unread, harg5.read_unread, View.ld_unit_zero (S := S200x10000) zero_off2, View.ld_unit_zero (S := S10000x16) zero_off2, View.ld_unit_zero (S := S1x16) zero_off2]
  isplitl [HS0]
  · iexists _; isplitr; · ipureintro; exact harg10.read_unread _
    iexact HS0
  iexists _; isplitr; swap; · iexact HS1
  ipureintro
  rw [read_rows_store arg11 harg11 i]
  simp only [View.readAt_eq_ld, harg3.read_unread, harg10.read_unread, harg5.read_unread, harg6.read_unread, View.ld_unit_zero (S := S200x10000) zero_off2, View.ld_unit_zero (S := S10000x16) zero_off2, View.ld_unit_zero (S := S1x16) zero_off2, View.ld_unit_zero (S := S16x16) zero_off2]

end Cert.KernelIdeal.Conv

end
-- ==== Proof.KernelIdeal.RunFirst.lean ====
/-
  The body at the first point: it computes support₁ = X · W₁ into the first scratch buffer, then, reading it back,
  does what every first-pass point does — the point's hidden block into the second output's staging buffer, the
  point's block of support₂ into its rows of the second scratch buffer.
-/
import proofs.«150757_g22213570854912_cont_8to1_1494_15_alg».proof.Proof.KernelIdeal.RunMid

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

set_option maxHeartbeats 1000000 in
theorem run_first (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole) (arg9 : Memref sig .tc .vmem S200x16 .f32) (harg9 : arg9.IsWhole) (arg10 : Memref sig .tc .vmem S10000x16 .f32) (harg10 : arg10.IsWhole) (arg11 : Memref sig .tc .vmem S10000x16 .f32) (harg11 : arg11.IsWhole)
    (hc0 : condFirst i) (hc1 : condPass1 i) (hc2 : ¬condPass2 i)
    (x0 : Vec F S10000x128 .f32) (x1 : Vec F S200x10000 .f32) (x2 : Vec F S128x16 .f32) (x3 : Vec F S1x16 .f32) (x4 : Vec F S16x16 .f32) (x5 : Vec F S1x16 .f32) (y6 : Vec F S200x16 .f32) (xs1 : Vec F S10000x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ (∃ d, owns (c : Thread nD τ) arg10 fullShare d) ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (k0_pay2 x1 (k0_pay1 x0 x2) x3) ∗ owns (c : Thread nD τ) arg10 fullShare (k0_pay1 x0 x2) ∗ owns (c : Thread nD τ) arg11 fullShare (putRows xs1 (k0_off1 i 0) (k0_pay3 x1 (k0_pay1 x0 x2) x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs1
  sl_exec (disch := first | exact hc0 | exact hc1 | exact hc2)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · -- the hidden block, stored whole: its operands are the loads, the middle one support₁ read back
    iexists _; isplitr; swap; · iexact H7
    ipureintro
    rw [View.read_writes_eq_canon _ _ _ (fun y => ⟨_, List.mem_singleton_self _, View.mem_set_unit_zero zero_off2 Facts₀.inb_S200x16_S200x16_0_0 y⟩), View.canon_unit_zero zero_off2]
    simp only [View.readAt_eq_ld, harg2.read_unread, harg3.read_unread, harg4.read_unread, harg5.read_unread, View.readCov_unit_zero (S := S10000x16) _ zero_off2, View.ld_unit_zero (S := S10000x128) zero_off2, View.ld_unit_zero (S := S128x16) zero_off2, View.ld_unit_zero (S := S200x10000) zero_off2, View.ld_unit_zero (S := S1x16) zero_off2]
  isplitl [HS0]
  · -- support₁, stored whole over whatever the first scratch buffer held
    iexists _; isplitr; swap; · iexact HS0
    ipureintro
    rw [View.read_writes_eq_canon _ _ _ (fun y => ⟨_, List.mem_singleton_self _, View.mem_set_unit_zero zero_off2 Facts₀.inb_S10000x16_S10000x16_0_0 y⟩), View.canon_unit_zero zero_off2]
    simp only [View.readAt_eq_ld, harg2.read_unread, harg4.read_unread, View.ld_unit_zero (S := S10000x128) zero_off2, View.ld_unit_zero (S := S128x16) zero_off2]
  -- the block of support₂, stored into its rows of the second scratch buffer
  iexists _; isplitr; swap; · iexact HS1
  ipureintro
  rw [read_rows_store arg11 harg11 i]
  simp only [View.readAt_eq_ld, harg2.read_unread, harg3.read_unread, harg4.read_unread, harg5.read_unread, harg6.read_unread, View.readCov_unit_zero (S := S10000x16) _ zero_off2, View.ld_unit_zero (S := S10000x128) zero_off2, View.ld_unit_zero (S := S128x16) zero_off2, View.ld_unit_zero (S := S200x10000) zero_off2, View.ld_unit_zero (S := S1x16) zero_off2, View.ld_unit_zero (S := S16x16) zero_off2]

end Cert.KernelIdeal.Conv

end
-- ==== Proof.KernelIdeal.RunLast.lean ====
/-
  The body at a second-pass point (points 50 … 99): from support₂ whole in the second scratch buffer it stores the
  point's block of the log-softmax output into the first output's staging buffer; it stores nothing into the second
  output's staging buffer, which is handed back as it was found, like everything else.
-/
import proofs.«150757_g22213570854912_cont_8to1_1494_15_alg».proof.Proof.KernelIdeal.RunMid

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

set_option maxHeartbeats 1000000 in
theorem run_last (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole) (arg9 : Memref sig .tc .vmem S200x16 .f32) (harg9 : arg9.IsWhole) (arg10 : Memref sig .tc .vmem S10000x16 .f32) (harg10 : arg10.IsWhole) (arg11 : Memref sig .tc .vmem S10000x16 .f32) (harg11 : arg11.IsWhole)
    (hc0 : ¬condFirst i) (hc1 : ¬condPass1 i) (hc2 : condPass2 i)
    (x0 : Vec F S10000x128 .f32) (x1 : Vec F S200x10000 .f32) (x2 : Vec F S128x16 .f32) (x3 : Vec F S1x16 .f32) (x4 : Vec F S16x16 .f32) (x5 : Vec F S1x16 .f32) (y7 : Vec F S200x16 .f32) (xs0 xs1 : Vec F S10000x16 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x1 xs1 x5) ∗ owns (c : Thread nD τ) arg9 fullShare y7 ∗ owns (c : Thread nD τ) arg10 fullShare xs0 ∗ owns (c : Thread nD τ) arg11 fullShare xs1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero zero_off2 Facts₀.inb_S200x16_S200x16_0_0 y⟩), View.canon_unit_zero zero_off2]
    simp only [View.readAt_eq_ld, harg3.read_unread, harg11.read_unread, harg7.read_unread, View.ld_unit_zero (S := S200x10000) zero_off2, View.ld_unit_zero (S := S10000x16) zero_off2, View.ld_unit_zero (S := S1x16) zero_off2]
  isplitl [H7]
  · iexists _; isplitr; · ipureintro; exact harg9.read_unread _
    iexact H7
  isplitl [HS0]
  · iexists _; isplitr; · ipureintro; exact harg10.read_unread _
    iexact HS0
  iexists _; isplitr; · ipureintro; exact harg11.read_unread _
  iexact HS1

end Cert.KernelIdeal.Conv

end
-- ==== Proof.KernelIdeal.Body.lean ====
/-
  The body obligation of the pipelined call against the proof data with both results named, the run it gives, and
  the frame. A point is in one of three cases — the first point, another first-pass point, a second-pass point —
  and in each the body's run hands every buffer back as the proof data says: during the first pass the first
  output's window is idle and keeps what it held; during the second pass the second output's window is idle and
  keeps point 49's hidden block, which is what the last point's write-back then writes.
-/
import proofs.«150757_g22213570854912_cont_8to1_1494_15_alg».proof.Proof.KernelIdeal.Data
import proofs.«150757_g22213570854912_cont_8to1_1494_15_alg».proof.Proof.KernelIdeal.RunFirst
import proofs.«150757_g22213570854912_cont_8to1_1494_15_alg».proof.Proof.KernelIdeal.RunLast

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Pure facts about the rows of support₂ and the blocks -/
/-- Storing block t of support₂ into rows [200 t, 200 t + 200) of an array that agrees with support₂ on the rows
    below 200 t gives one that agrees with it on the rows below 200 (t + 1). -/
private theorem putRows_sup2 (c : Dev nD) (t : Fin cfg0.N) (ht : t.val < 50) (d : Vec F S10000x16 .f32)
    (hd : ∀ y : S10000x16.Idx, (y 0).val < rowsDone t.val → d y = sup2 m c y) :
    ∀ y : S10000x16.Idx, (y 0).val < rowsDone (t.val + 1) → putRows d (200 * t.val) (sup2B m c t) y = sup2 m c y := by
  intro y hy
  unfold rowsDone at hy hd
  unfold putRows
  by_cases h : 200 * t.val ≤ (y 0).val ∧ (y 0).val < 200 * t.val + 200
  · rw [dif_pos h]
    unfold sup2
    have h1 : rowPt y = t := Fin.ext (by show (y 0).val / 200 = t.val; omega)
    have h2 : rowIn y = ⟨(y 0).val - 200 * t.val, by omega⟩ := Fin.ext (by show (y 0).val % 200 = (y 0).val - 200 * t.val; omega)
    rw [h1, h2]
  · rw [dif_neg h]
    exact hd y (by omega)

/-- From point 50 on every row of support₂ is stored: an array that agrees with it on the rows stored is support₂. -/
private theorem eq_sup2_of_done (c : Dev nD) (n : ℕ) (hn : 50 ≤ n) (d : Vec F S10000x16 .f32)
    (hd : ∀ y : S10000x16.Idx, (y 0).val < rowsDone n → d y = sup2 m c y) : d = sup2 m c := by
  funext y
  exact hd y (by have := row_lt y; unfold rowsDone; omega)

/-- In the second pass the number of rows stored no longer grows. -/
private theorem rowsDone_pass2 (n : ℕ) (hn : 50 ≤ n) : rowsDone (n + 1) = rowsDone n := by
  unfold rowsDone; omega

/-- support₁ is what the first point computes from the blocks it reads. -/
private theorem sup1_eq (c : Dev nD) (t : Fin cfg0.N) (ht : t.val = 0) : k0_pay1 (iblk m c 0 t) (iblk m c 2 t) = sup1 m c := by
  have h : t = pt 0 (by norm_num) := Fin.ext ht
  subst h; rfl

/-- In the first pass the hidden layer's staging buffer is on the point's own block. -/
private theorem hidPt_pass1 (t : Fin cfg0.N) (ht : t.val < 50) : hidPt t = t := Fin.ext (by show min t.val 49 = t.val; omega)

/-- From point 49 on it is on block 49. -/
private theorem hidPt_pass2 (t : Fin cfg0.N) (ht : 50 ≤ t.val) : hidPt t = pt 49 (by norm_num) := Fin.ext (by show min t.val 49 = 49; omega)

/-! ## What the body leaves in each window's buffer, case by case -/

private theorem leaves_in0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after_in0]
private theorem leaves_in1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after_in1]
private theorem leaves_in2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after_in2]
private theorem leaves_in3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after_in3]
private theorem leaves_in4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live4 t], after_in4]
private theorem leaves_in5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live5 t], after_in5]

/-- First pass: the first output's window is idle and not written back, so its buffer keeps what it held. -/
private theorem leaves_out_pass1 (c : Dev nD) (t : Fin cfg0.N) (ht : t.val < 50) :
    (dats m 0 c).leavesExact 6 t = iprop(∃ d, owns (c : Thread nD τ) (ms6 t) fullShare ((dats m 0 c).before 6 t d)) :=
  (dats m 0 c).leavesExact_idle 6 t ((idle_out_iff t).mpr ht)
    (Bool.eq_false_iff.mpr fun h => absurd ((flush_out_iff t).mp h) (by omega))

/-- Second pass: it holds the point's output block. -/
private theorem leaves_out_pass2 (c : Dev nD) (t : Fin cfg0.N) (ht : 50 ≤ t.val) :
    (dats m 0 c).leavesExact 6 t = owns (c : Thread nD τ) (ms6 t) fullShare (k0_pay4 (iblk m c 1 t) (sup2 m c) (iblk m c 5 t)) := by
  have hi : cfg0.idle 6 (grid0.coords t) = false := Bool.eq_false_iff.mpr fun h => absurd ((idle_out_iff t).mp h) (by omega)
  rw [show (dats m 0 c).leavesExact 6 t = owns (c : Thread nD τ) (ms6 t) fullShare ((dats m 0 c).after 6 t) from by
    unfold Dat.leavesExact; rw [hi], after_out]
  rfl

/-- First pass: the second output's buffer holds the point's hidden block. -/
private theorem leaves_hid_pass1 (c : Dev nD) (t : Fin cfg0.N) (ht : t.val < 50) :
    (dats m 0 c).leavesExact 7 t = owns (c : Thread nD τ) (ms7 t) fullShare (k0_pay2 (iblk m c 1 t) (sup1 m c) (iblk m c 3 t)) := by
  have hi : cfg0.idle 7 (grid0.coords t) = false := Bool.eq_false_iff.mpr fun h => absurd ((idle_hid_iff t).mp h) (by omega)
  rw [show (dats m 0 c).leavesExact 7 t = owns (c : Thread nD τ) (ms7 t) fullShare ((dats m 0 c).after 7 t) from by
    unfold Dat.leavesExact; rw [hi], after_hid, hidPt_pass1 t ht]
  rfl

/-- Second pass: the window is idle; the buffer, handed back as it was found, is what the obligation asks — what it
    held, or at the last point, where it is written back, point 49's hidden block, which is what it held. -/
private theorem leaves_hid_pass2 (c : Dev nD) (t : Fin cfg0.N) (ht : 50 ≤ t.val) (d) :
    owns (c : Thread nD τ) (ms7 t) fullShare ((dats m 0 c).before 7 t d) ⊢ (dats m 0 c).leavesExact 7 t := by
  have hi : cfg0.idle 7 (grid0.coords t) = true := (idle_hid_iff t).mpr ht
  by_cases h99 : t.val = 99
  · have hf : (cfg0.win 7).flush t = true := (flush_hid_iff t).mpr (Or.inr h99)
    rw [show (dats m 0 c).leavesExact 7 t = owns (c : Thread nD τ) (ms7 t) fullShare ((dats m 0 c).after 7 t) from by
      unfold Dat.leavesExact; rw [hi, hf], after_hid, hidPt_pass2 t ht, before_hid_pass2 m c t ht d]
  · have hf : (cfg0.win 7).flush t = false :=
      Bool.eq_false_iff.mpr fun h => absurd ((flush_hid_iff t).mp h) (by have := pt_val_lt t; omega)
    rw [(dats m 0 c).leavesExact_idle 7 t hi hf]
    iintro H; iexists d; iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- A first-pass point after the first: support₁ is in the first scratch buffer; the point's hidden block goes to
    the second output's buffer and its block of support₂ to its rows of the second scratch buffer. -/
private theorem sound_mid (c : Dev nD) (t : Fin cfg0.N) (h0 : t.val ≠ 0) (h1 : t.val < 50) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [Phi_succ, PhiT_succ, Phi_castSucc, PhiT_pos m c _ _ h0]
  rw [leaves_in0, leaves_in1, leaves_in2, leaves_in3, leaves_in4, leaves_in5, leaves_out_pass1 m c t h1, leaves_hid_pass1 m c t h1]
  have hoff : k0_off1 (grid0.coords t) 0 = 200 * t.val := by rw [off_rows t h1]; rfl
  iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_mid c (grid0.coords t) _ _ _ _ _ _ _ _ _ _ _ _ _ _ _ _ _ _ _ _
    (fun h => h0 ((condFirst_iff t).mp h)) ((condPass1_iff t).mpr h1) (fun h => absurd ((condPass2_iff t).mp h) (by omega))
    (iblk m c 0 t) (iblk m c 1 t) (iblk m c 2 t) (iblk m c 3 t) (iblk m c 4 t) (iblk m c 5 t)
    ((dats m 0 c).before 6 t d6) (sup1 m c) d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexists _; isplitr
      swap; · iexact HS1
      ipureintro; rw [hoff]; exact putRows_sup2 m c t h1 d hd
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 9600000 in
/-- The first point: the scratch buffers hold anything; the body computes support₁ into the first, then does what
    every first-pass point does. -/
private theorem sound_first (c : Dev nD) (t : Fin cfg0.N) (h0 : t.val = 0) :
    bodyPre m c t ⊢ wp frame (wpE (defs₀ (F := F)) Variants.none c none) Set.univ (bodyAt0 t) (fun _ => bodyPost m c t) := by
  have h1 : t.val < 50 := by omega
  unfold bodyPre bodyPost bodyAt0
  simp only [before_in0, before_in1, before_in2, before_in3, before_in4, before_in5]
  rw [show (dats m 0 c).owesAt () t.succ = (dats m 0 c).owesAt () t.castSucc from rfl]
  rw [Phi_succ, PhiT_succ, Phi_castSucc, PhiT_zero m c _ _ h0, PhiA_eq]
  rw [leaves_in0, leaves_in1, leaves_in2, leaves_in3, leaves_in4, leaves_in5, leaves_out_pass1 m c t h1, leaves_hid_pass1 m c t h1]
  rw [← sup1_eq m c t h0]
  have hoff : k0_off1 (grid0.coords t) 0 = 200 * t.val := by rw [off_rows t h1]; rfl
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ _ _
    ((condFirst_iff t).mpr h0) ((condPass1_iff t).mpr h1) (fun h => absurd ((condPass2_iff t).mp h) (by omega))
    (iblk m c 0 t) (iblk m c 1 t) (iblk m c 2 t) (iblk m c 3 t) (iblk m c 4 t) (iblk m c 5 t)
    ((dats m 0 c).before 6 t d6) e1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexists _; iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexists _; isplitr
      swap; · iexact HS1
      ipureintro; rw [hoff, sup1_eq m c t h0]
      exact putRows_sup2 m c t h1 e1 (fun y hy => by exfalso; rw [h0] at hy; unfold rowsDone at hy; omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 9600000 in
/-- A second-pass point: the second scratch buffer holds support₂ whole; the point's output block goes to the first
    output's buffer and everything else is handed back as it was found. -/
private theorem sound_last (c : Dev nD) (t : Fin cfg0.N) (h2 : 50 ≤ t.val) :
    bodyPre m c t ⊢ wp frame (wpE (defs₀ (F := F)) Variants.none c none) Set.univ (bodyAt0 t) (fun _ => bodyPost m c t) := by
  have h0 : t.val ≠ 0 := by omega
  unfold bodyPre bodyPost bodyAt0
  simp only [before_in0, before_in1, before_in2, before_in3, before_in4, before_in5]
  rw [show (dats m 0 c).owesAt () t.succ = (dats m 0 c).owesAt () t.castSucc from rfl]
  rw [Phi_succ, PhiT_succ, Phi_castSucc, PhiT_pos m c _ _ h0]
  rw [leaves_in0, leaves_in1, leaves_in2, leaves_in3, leaves_in4, leaves_in5, leaves_out_pass2 m c t h2]
  iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl := eq_sup2_of_done m c t.val h2 d hd
  iapply (run_last c (grid0.coords t) _ _ _ _ _ _ _ _ _ _ _ _ _ _ _ _ _ _ _ _
    (fun h => h0 ((condFirst_iff t).mp h)) (fun h => absurd ((condPass1_iff t).mp h) (by omega)) ((condPass2_iff t).mpr h2)
    (iblk m c 0 t) (iblk m c 1 t) (iblk m c 2 t) (iblk m c 3 t) (iblk m c 4 t) (iblk m c 5 t)
    ((dats m 0 c).before 7 t d7) (sup1 m c) (sup2 m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexists _; isplitr
      swap; · iexact HS1
      ipureintro; exact fun _ _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_hid_pass2 m c t h2 d7)
  iexact H7

/-- The body at any point: a point is the first, another first-pass point, or a second-pass point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h1 : t.val < 50
    · exact sound_mid m c t h0 h1
    · exact sound_last m c t (by omega)

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiT m c 0 (Nat.zero_le _) from rfl, PhiT_zero m c 0 _ rfl]
  try exact Idealize.SL.BI.Entails.refl _

/-- After the last point the invariant gives the launch's back: what the scratch buffers hold is forgotten. -/
theorem hout (c : Dev nD) : (dats m 0 c).Φ (Fin.last cfg0.N) ⊢ Pipeline.ΦA spec0 c := by
  have hN : (Fin.last cfg0.N).val ≠ 0 := by rw [Fin.val_last]; have : cfg0.N = 100 := N_0; omega
  rw [show (dats m 0 c).Φ (Fin.last cfg0.N) = PhiT m c (Fin.last cfg0.N).val (Nat.le_of_lt_succ (Fin.last cfg0.N).isLt) from rfl,
    PhiT_pos m c _ _ hN, PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of @main terminates, each array of the call ending at what the proof data computes
    and every other unscoped buffer at its contents when the call was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Conv

end
-- ==== Proof.KernelIdeal.Arrays.lean ====
/-
  The two result arrays after the call, whole. Every write-back of an output window writes its block of ONE
  whole-array function — the hidden layer's block of point t after points 0 … 48 and block 49 after the last point,
  the log-softmax output's block 99 − t after second-pass point t — and those blocks cover the array.
-/
import proofs.«150757_g22213570854912_cont_8to1_1494_15_alg».proof.Proof.KernelIdeal.Data
import Idealize.ShloMosaic.Lib.Pipeline.Value

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## An element of a whole array, read at the row block and the place inside it -/

/-- Row `200 p + x₀`, column `x₁` of the hidden layer is element `(x₀, x₁)` of first-pass point `p`'s block. -/
private theorem hidArr_at (c : Dev nD) (p : Fin cfg0.N) (y : S10000x16.Idx) (x : S200x16.Idx)
    (h0 : (y 0).val = p.val * 200 + (x 0).val) (h1 : (y 1).val = (x 1).val) :
    hidArr m c y = hidB m c p x := by
  have hx0 : (x 0).val < 200 := (x 0).isLt
  have hp : rowPt y = p := Fin.ext (show (y 0).val / 200 = p.val by omega)
  have hx : ix2 (rowIn y) (colOf y) = x := by
    funext a
    apply Fin.ext
    match a with
    | ⟨0, _⟩ => show (y 0).val % 200 = (x 0).val; omega
    | ⟨1, _⟩ => show (y 1).val = (x 1).val; exact h1
  unfold hidArr
  rw [hp, hx]

/-- Row `200 (99 − t) + x₀`, column `x₁` of the output is element `(x₀, x₁)` of second-pass point `t`'s block. -/
private theorem outArr_at (c : Dev nD) (t : Fin cfg0.N) (ht : 50 ≤ t.val) (y : S10000x16.Idx) (x : S200x16.Idx)
    (h0 : (y 0).val = (99 - t.val) * 200 + (x 0).val) (h1 : (y 1).val = (x 1).val) :
    outArr m c y = outB m c t x := by
  have hx0 : (x 0).val < 200 := (x 0).isLt
  have ht' : t.val < 100 := pt_val_lt t
  have hp : outPt y = t := Fin.ext (show 99 - (y 0).val / 200 = t.val by omega)
  have hx : ix2 (rowIn y) (colOf y) = x := by
    funext a
    apply Fin.ext
    match a with
    | ⟨0, _⟩ => show (y 0).val % 200 = (x 0).val; omega
    | ⟨1, _⟩ => show (y 1).val = (x 1).val; exact h1
  unfold outArr
  rw [hp, hx]

/-! ## The hidden layer -/

/-- What the hidden layer's window writes back after point `t` is block `min t 49` of the whole hidden layer. -/
private theorem flushed_hid_eq (c : Dev nD) (t : Fin cfg0.N) :
    (dats m 0 c).flushed 7 t = ((cfg0.win 7).blk t).view.read (Elt F) (hidArr m c) := by
  show (cfg0.win 7).cut (grid0.coords t) ((dats m 0 c).after 7 t) = _
  rw [after_hid]
  obtain ⟨e0, e1⟩ := hid_index t
  funext j
  show hidB m c (hidPt t) j = hidArr m c (((cfg0.win 7).blk t).view.emb j)
  refine (hidArr_at m c (hidPt t) _ j ?_ ?_).symm
  · show win0_7.index t (0 : Fin 2) * 200 + 1 * (j 0).val = min t.val 49 * 200 + (j 0).val
    rw [e0]; omega
  · show win0_7.index t (1 : Fin 2) * 16 + 1 * (j 1).val = (j 1).val
    rw [e1]; omega

/-- An index of the array is in point `t`'s block of the hidden layer iff each coordinate is in the block's range. -/
private theorem mem_blk_hid (t : Fin cfg0.N) (i : S10000x16.Idx) :
    i ∈ ((cfg0.win 7).blk t).view.set ↔ ∀ a : Fin 2, win0_7.index t a * S200x16.size a ≤ (i a).val ∧ (i a).val < win0_7.index t a * S200x16.size a + S200x16.size a := by
  show i ∈ ((View.whole main_v2_1).slice (win0_7.rect t)).set ↔ _
  rw [View.set_slice_whole, Rect.mem_set_unit]
  exact Iff.rfl

/-- Every row of the hidden layer is in a written-back block: row `r` in point `r / 200`'s while that is below 49,
    rows 9800 … 9999 in the last point's. -/
private theorem cover_hid (i : S10000x16.Idx) :
    ∃ t : Fin cfg0.N, (cfg0.win 7).flush t = true ∧ i ∈ ((cfg0.win 7).blk t).view.set := by
  have hi0 : (i 0).val < 10000 := (i 0).isLt
  have hi1 : (i 1).val < 16 := (i 1).isLt
  by_cases h : (i 0).val / 200 < 49
  · refine ⟨pt ((i 0).val / 200) (by omega), (flush_hid_iff _).mpr (Or.inl h), ?_⟩
    rw [mem_blk_hid]
    obtain ⟨e0, e1⟩ := hid_index (pt ((i 0).val / 200) (by omega))
    intro a
    match a with
    | ⟨0, _⟩ =>
      show win0_7.index (pt ((i 0).val / 200) (by omega)) (0 : Fin 2) * 200 ≤ (i 0).val ∧ (i 0).val < win0_7.index (pt ((i 0).val / 200) (by omega)) (0 : Fin 2) * 200 + 200
      rw [e0]
      show min ((i 0).val / 200) 49 * 200 ≤ (i 0).val ∧ (i 0).val < min ((i 0).val / 200) 49 * 200 + 200
      omega
    | ⟨1, _⟩ =>
      show win0_7.index (pt ((i 0).val / 200) (by omega)) (1 : Fin 2) * 16 ≤ (i 1).val ∧ (i 1).val < win0_7.index (pt ((i 0).val / 200) (by omega)) (1 : Fin 2) * 16 + 16
      rw [e1]
      omega
  · refine ⟨pt 99 (by norm_num), (flush_hid_iff _).mpr (Or.inr rfl), ?_⟩
    rw [mem_blk_hid]
    obtain ⟨e0, e1⟩ := hid_index (pt 99 (by norm_num))
    intro a
    match a with
    | ⟨0, _⟩ =>
      show win0_7.index (pt 99 (by norm_num)) (0 : Fin 2) * 200 ≤ (i 0).val ∧ (i 0).val < win0_7.index (pt 99 (by norm_num)) (0 : Fin 2) * 200 + 200
      rw [e0]
      show min 99 49 * 200 ≤ (i 0).val ∧ (i 0).val < min 99 49 * 200 + 200
      omega
    | ⟨1, _⟩ =>
      show win0_7.index (pt 99 (by norm_num)) (1 : Fin 2) * 16 ≤ (i 1).val ∧ (i 1).val < win0_7.index (pt 99 (by norm_num)) (1 : Fin 2) * 16 + 16
      rw [e1]
      omega

/-- The hidden layer's array after the call. -/
theorem final_hid (c : Dev nD) : (dats m 0 c).arrAt 7 cfg0.N = hidArr m c :=
  (dats m 0 c).arrAt_eq_of_cover 7 (hidArr m c) (fun t _ => flushed_hid_eq m c t) cover_hid

/-! ## The log-softmax output -/

/-- What the output's window writes back after second-pass point `t` is block `99 − t` of the whole output. -/
private theorem flushed_out_eq (c : Dev nD) (t : Fin cfg0.N) (ht : 50 ≤ t.val) :
    (dats m 0 c).flushed 6 t = ((cfg0.win 6).blk t).view.read (Elt F) (outArr m c) := by
  show (cfg0.win 6).cut (grid0.coords t) ((dats m 0 c).after 6 t) = _
  rw [after_out]
  obtain ⟨e0, e1⟩ := out_index t ht
  funext j
  show outB m c t j = outArr m c (((cfg0.win 6).blk t).view.emb j)
  refine (outArr_at m c t ht _ j ?_ ?_).symm
  · show win0_6.index t (0 : Fin 2) * 200 + 1 * (j 0).val = (99 - t.val) * 200 + (j 0).val
    rw [e0]; omega
  · show win0_6.index t (1 : Fin 2) * 16 + 1 * (j 1).val = (j 1).val
    rw [e1]; omega

/-- An index of the array is in point `t`'s block of the output iff each coordinate is in the block's range. -/
private theorem mem_blk_out (t : Fin cfg0.N) (i : S10000x16.Idx) :
    i ∈ ((cfg0.win 6).blk t).view.set ↔ ∀ a : Fin 2, win0_6.index t a * S200x16.size a ≤ (i a).val ∧ (i a).val < win0_6.index t a * S200x16.size a + S200x16.size a := by
  show i ∈ ((View.whole main_v2_0).slice (win0_6.rect t)).set ↔ _
  rw [View.set_slice_whole, Rect.mem_set_unit]
  exact Iff.rfl

/-- Every row of the output is in a written-back block: row `r` in second-pass point `99 − r / 200`'s. -/
private theorem cover_out (i : S10000x16.Idx) :
    ∃ t : Fin cfg0.N, (cfg0.win 6).flush t = true ∧ i ∈ ((cfg0.win 6).blk t).view.set := by
  have hi0 : (i 0).val < 10000 := (i 0).isLt
  have hi1 : (i 1).val < 16 := (i 1).isLt
  have hq : 50 ≤ 99 - (i 0).val / 200 := by omega
  refine ⟨pt (99 - (i 0).val / 200) (by omega), (flush_out_iff _).mpr hq, ?_⟩
  rw [mem_blk_out]
  obtain ⟨e0, e1⟩ := out_index (pt (99 - (i 0).val / 200) (by omega)) hq
  intro a
  match a with
  | ⟨0, _⟩ =>
    show win0_6.index (pt (99 - (i 0).val / 200) (by omega)) (0 : Fin 2) * 200 ≤ (i 0).val ∧ (i 0).val < win0_6.index (pt (99 - (i 0).val / 200) (by omega)) (0 : Fin 2) * 200 + 200
    rw [e0]
    show (99 - (99 - (i 0).val / 200)) * 200 ≤ (i 0).val ∧ (i 0).val < (99 - (99 - (i 0).val / 200)) * 200 + 200
    omega
  | ⟨1, _⟩ =>
    show win0_6.index (pt (99 - (i 0).val / 200) (by omega)) (1 : Fin 2) * 16 ≤ (i 1).val ∧ (i 1).val < win0_6.index (pt (99 - (i 0).val / 200) (by omega)) (1 : Fin 2) * 16 + 16
    rw [e1]
    omega

/-- The log-softmax output's array after the call. -/
theorem final_out (c : Dev nD) : (dats m 0 c).arrAt 6 cfg0.N = outArr m c :=
  (dats m 0 c).arrAt_eq_of_cover 6 (outArr m c) (fun t hf => flushed_out_eq m c t ((flush_out_iff t).mp hf)) cover_out

end Cert.KernelIdeal.Conv

end
-- ==== Proof.KernelIdeal.Named.lean ====
/-
  The idealized kernel's run with both results named: every weakly fair execution of @main terminates with the
  log-softmax output at `outArr`, the hidden layer at `hidArr`, and the six argument arrays unchanged. The frame run
  leaves each array of the call at what the proof data computes; the two output arrays are then the whole-array
  functions their write-backs cover, and an argument array is never written.
-/
import proofs.«150757_g22213570854912_cont_8to1_1494_15_alg».proof.Proof.KernelIdeal.Body
import proofs.«150757_g22213570854912_cont_8to1_1494_15_alg».proof.Proof.KernelIdeal.Arrays

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_named : θ_run defs (onTc (τ := τ) (main (F := F))) ⟨m, fun _ => 0, ρ⟩ (fun r => ∀ c : Dev nD,
      r.2.mem ((c.tc : Thread nD τ).loc main_v2_0) = outArr m c
      ∧ r.2.mem ((c.tc : Thread nD τ).loc main_v2_1) = hidArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_out m c), ((h c).1 7).trans (final_hid m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Conv

end
-- ==== Proof.ConvSpec.lean ====
/-
  A two-layer graph convolution with a row-wise log-softmax, as plain formulas over the extended reals.

  From node features X (10000 × 128), a dense adjacency A (10000 × 10000), weights W₁ (128 × 16), W₂ (16 × 16) and
  biases b₁, b₂ (16):
    support₁ = X · W₁,   hidden = max (A · support₁ + b₁, 0),   support₂ = hidden · W₂,   logit = A · support₂ + b₂,
  and, with m the row maximum of logit and L = log Σⱼ exp (logitⱼ − m), the log-softmax of a row written two ways:
    logit − (L + m)      (the maximum added back to the log of the shifted sum, then subtracted once), and
    (logit − m) − L      (the row shifted first, the log of its sum subtracted afterwards).
  On real numbers the two agree; on the extended reals they agree as soon as logit and m are finite, whatever L is
  (`sub_add_eq_sub_sub`), and logit and m are finite when every input entry is a real number: sums, products and
  maxima of reals are reals, and a maximum over a row that starts from −∞ is one of the row's entries.
-/
import Idealize.ShloMosaic.PureOps.Ideal
import Idealize.ShloMosaic.Lib.ValueIdx

noncomputable section

namespace Cert.Conv

open Idealize.ShloMosaic

/-- An extended real that is a real number. -/
def IsReal (x : EReal) : Prop := ∃ r : ℝ, x = (r : EReal)

/-- A rank-2 array read as a function of its row and column. -/
def mat {a b : ℕ} (x : (⟨2, ![a, b]⟩ : Shape).Idx → EReal) : Fin a → Fin b → EReal := fun r q => x (ValueIdx.ix2 r q)

/-- A rank-1 array read as a function of its position. -/
def vec {a : ℕ} (x : (⟨1, ![a]⟩ : Shape).Idx → EReal) : Fin a → EReal := fun q => x (ValueIdx.ix1 q)

section Formulas

variable (X : Fin 10000 → Fin 128 → EReal) (A : Fin 10000 → Fin 10000 → EReal) (W₁ : Fin 128 → Fin 16 → EReal)
  (b₁ : Fin 16 → EReal) (W₂ : Fin 16 → Fin 16 → EReal) (b₂ : Fin 16 → EReal)

/-- X · W₁. -/
def support₁ (k : Fin 10000) (j : Fin 16) : EReal := ∑ f : Fin 128, X k f * W₁ f j

/-- The hidden layer: max (A · support₁ + b₁, 0). -/
def hidden (r : Fin 10000) (j : Fin 16) : EReal := max (∑ k : Fin 10000, A r k * support₁ X W₁ k j + b₁ j) 0

/-- hidden · W₂. -/
def support₂ (k : Fin 10000) (j : Fin 16) : EReal := ∑ l : Fin 16, hidden X A W₁ b₁ k l * W₂ l j

/-- A · support₂ + b₂. -/
def logit (r : Fin 10000) (j : Fin 16) : EReal := ∑ k : Fin 10000, A r k * support₂ X A W₁ b₁ W₂ k j + b₂ j

/-- The maximum of a row of logits, folded from −∞. -/
def rowMax (r : Fin 10000) : EReal := (Finset.univ : Finset (Fin 16)).fold max ⊥ (fun j => logit X A W₁ b₁ W₂ b₂ r j)

/-- log Σⱼ exp (logitⱼ − rowMax). -/
def logSumShifted (r : Fin 10000) : EReal :=
  Ideal.log (∑ j : Fin 16, Ideal.exp (logit X A W₁ b₁ W₂ b₂ r j - rowMax X A W₁ b₁ W₂ b₂ r))

/-- The log-softmax with the maximum added back first: logit − (L + m). -/
def logSoftmaxAddBack (r : Fin 10000) (j : Fin 16) : EReal :=
  logit X A W₁ b₁ W₂ b₂ r j - (logSumShifted X A W₁ b₁ W₂ b₂ r + rowMax X A W₁ b₁ W₂ b₂ r)

/-- The log-softmax with the row shifted first: (logit − m) − L. -/
def logSoftmaxShiftFirst (r : Fin 10000) (j : Fin 16) : EReal :=
  (logit X A W₁ b₁ W₂ b₂ r j - rowMax X A W₁ b₁ W₂ b₂ r) - logSumShifted X A W₁ b₁ W₂ b₂ r

end Formulas

end Cert.Conv

end
-- ==== Proof.KernelIdeal.ValuesHid.lean ====
/-
  The first pass at the ideal instance, read at an index: each window's block is a rectangle of its argument array,
  support₁ is X · W₁, the hidden block of point t is rows [200 t, 200 t + 200) of max (A · support₁ + b₁, 0), and
  support₂ whole is hidden · W₂. A matrix product into a zero accumulator is the plain sum over the contracted
  axis, and a bias of shape [1, 16] broadcast down the rows is read at its column.
-/
import proofs.«150757_g22213570854912_cont_8to1_1494_15_alg».proof.Proof.KernelIdeal.Blocks
import proofs.«150757_g22213570854912_cont_8to1_1494_15_alg».proof.Proof.KernelIdeal.Schedule
import proofs.«150757_g22213570854912_cont_8to1_1494_15_alg».proof.Proof.ConvSpec
import Idealize.ShloMosaic.PureOps.Ideal.Laws
import Idealize.ShloMosaic.Lib.Pipeline.Value
import Idealize.ShloMosaic.Lib.ValueLayout
import Idealize.ShloMosaic.Lib.StableHlo.Run

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

open Cert.Conv

variable (m : (ℓ : Loc nD τ sig) → Buf (Elt Ideal) ℓ)

/-- The adjacency's row block a point is on: `t` in the first pass, `99 − t` in the second. -/
def adjBlk (t : Fin cfg0.N) : ℕ := if t.val < 50 then t.val else 99 - t.val

theorem adjBlk_lt (t : Fin cfg0.N) : adjBlk t < 50 := by
  have := pt_val_lt t; unfold adjBlk; split <;> omega

/-! ## The windows' blocks are rectangles of the argument arrays -/

theorem featB_apply (c : Dev nD) (t : Fin cfg0.N) (p : Fin 10000) (q : Fin 128) :
    featB (F := Ideal) m c t (ix2 p q) = mat (m ((c.tc : Thread nD τ).loc main_arg0)) p q := by
  have h := fixed_index t
  show V m c main_arg0 (((cfg0.win 0).blk t).view.emb (ix2 p q)) = m ((c.tc : Thread nD τ).loc main_arg0) (ix2 p q)
  rw [V_main_arg0]
  refine congrArg _ (funext fun a => Fin.ext ?_)
  match a with
  | ⟨0, _⟩ => show win0_0.index t (0 : Fin 2) * 10000 + 1 * p.val = p.val; rw [h.1 0]; omega
  | ⟨1, _⟩ => show win0_0.index t (1 : Fin 2) * 128 + 1 * q.val = q.val; rw [h.1 1]; omega

theorem adjB_apply (c : Dev nD) (t : Fin cfg0.N) (p : Fin 200) (q : Fin 10000) :
    adjB (F := Ideal) m c t (ix2 p q) = mat (m ((c.tc : Thread nD τ).loc main_arg1)) ⟨adjBlk t * 200 + p.val, by have := adjBlk_lt t; omega⟩ q := by
  obtain ⟨h0, h1⟩ := adj_index t
  show V m c main_arg1 (((cfg0.win 1).blk t).view.emb (ix2 p q)) = m ((c.tc : Thread nD τ).loc main_arg1) (ix2 ⟨adjBlk t * 200 + p.val, by have := adjBlk_lt t; omega⟩ q)
  rw [V_main_arg1]
  refine congrArg _ (funext fun a => Fin.ext ?_)
  match a with
  | ⟨0, _⟩ => show win0_1.index t (0 : Fin 2) * 200 + 1 * p.val = adjBlk t * 200 + p.val; rw [h0]; unfold adjBlk; omega
  | ⟨1, _⟩ => show win0_1.index t (1 : Fin 2) * 10000 + 1 * q.val = q.val; rw [h1]; omega

theorem w1B_apply (c : Dev nD) (t : Fin cfg0.N) (p : Fin 128) (q : Fin 16) :
    w1B (F := Ideal) m c t (ix2 p q) = mat (m ((c.tc : Thread nD τ).loc main_arg2)) p q := by
  have h := fixed_index t
  show V m c main_arg2 (((cfg0.win 2).blk t).view.emb (ix2 p q)) = m ((c.tc : Thread nD τ).loc main_arg2) (ix2 p q)
  rw [V_main_arg2]
  refine congrArg _ (funext fun a => Fin.ext ?_)
  match a with
  | ⟨0, _⟩ => show win0_2.index t (0 : Fin 2) * 128 + 1 * p.val = p.val; rw [h.2.1 0]; omega
  | ⟨1, _⟩ => show win0_2.index t (1 : Fin 2) * 16 + 1 * q.val = q.val; rw [h.2.1 1]; omega

/-- The first bias reaches the call reshaped to one row. -/
theorem b1B_apply (c : Dev nD) (t : Fin cfg0.N) (p : Fin 1) (q : Fin 16) :
    b1B (F := Ideal) m c t (ix2 p q) = vec (m ((c.tc : Thread nD τ).loc main_arg3)) q := by
  have h := fixed_index t
  have e : (V m c main_v0 : S1x16.Idx → EReal) = shapeCast S1x16 (m ((c.tc : Thread nD τ).loc main_arg3)) shapeCasts_S16_S1x16 := by
    dsimp only [Gen.V, Gen.hostOps0]; after_results; rfl
  have hi : ((cfg0.win 3).blk t).view.emb (ix2 p q) = ix2 p q := by
    funext a; apply Fin.ext
    match a with
    | ⟨0, _⟩ => show win0_3.index t (0 : Fin 2) * 1 + 1 * p.val = p.val; rw [h.2.2.1 0]; omega
    | ⟨1, _⟩ => show win0_3.index t (1 : Fin 2) * 16 + 1 * q.val = q.val; rw [h.2.2.1 1]; omega
  show V m c main_v0 (((cfg0.win 3).blk t).view.emb (ix2 p q)) = m ((c.tc : Thread nD τ).loc main_arg3) (ix1 q)
  rw [hi]
  refine (congrFun e (ix2 p q)).trans ?_
  exact shapeCast_a_1a_apply _ shapeCasts_S16_S1x16 p q

theorem w2B_apply (c : Dev nD) (t : Fin cfg0.N) (p : Fin 16) (q : Fin 16) :
    w2B (F := Ideal) m c t (ix2 p q) = mat (m ((c.tc : Thread nD τ).loc main_arg4)) p q := by
  have h := fixed_index t
  show V m c main_arg4 (((cfg0.win 4).blk t).view.emb (ix2 p q)) = m ((c.tc : Thread nD τ).loc main_arg4) (ix2 p q)
  rw [V_main_arg4]
  refine congrArg _ (funext fun a => Fin.ext ?_)
  match a with
  | ⟨0, _⟩ => show win0_4.index t (0 : Fin 2) * 16 + 1 * p.val = p.val; rw [h.2.2.2.1 0]; omega
  | ⟨1, _⟩ => show win0_4.index t (1 : Fin 2) * 16 + 1 * q.val = q.val; rw [h.2.2.2.1 1]; omega

/-- The second bias reaches the call reshaped to one row. -/
theorem b2B_apply (c : Dev nD) (t : Fin cfg0.N) (p : Fin 1) (q : Fin 16) :
    b2B (F := Ideal) m c t (ix2 p q) = vec (m ((c.tc : Thread nD τ).loc main_arg5)) q := by
  have h := fixed_index t
  have e : (V m c main_v1 : S1x16.Idx → EReal) = shapeCast S1x16 (m ((c.tc : Thread nD τ).loc main_arg5)) shapeCasts_S16_S1x16 := by
    dsimp only [Gen.V, Gen.hostOps0]; after_results; rfl
  have hi : ((cfg0.win 5).blk t).view.emb (ix2 p q) = ix2 p q := by
    funext a; apply Fin.ext
    match a with
    | ⟨0, _⟩ => show win0_5.index t (0 : Fin 2) * 1 + 1 * p.val = p.val; rw [h.2.2.2.2 0]; omega
    | ⟨1, _⟩ => show win0_5.index t (1 : Fin 2) * 16 + 1 * q.val = q.val; rw [h.2.2.2.2 1]; omega
  show V m c main_v1 (((cfg0.win 5).blk t).view.emb (ix2 p q)) = m ((c.tc : Thread nD τ).loc main_arg5) (ix1 q)
  rw [hi]
  refine (congrFun e (ix2 p q)).trans ?_
  exact shapeCast_a_1a_apply _ shapeCasts_S16_S1x16 p q

/-! ## Matrix products into a zero accumulator -/

private theorem lhs_xw_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
private theorem lhs_xw_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
private theorem rhs_xw_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
private theorem rhs_xw_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- A 10000 × 128 by 128 × 16 product into a zero accumulator is the plain sum over the contracted axis. -/
private theorem matmul_xw_apply (x : FVec Ideal S10000x128 .f32) (w : FVec Ideal S128x16 .f32) (p : Fin 10000) (j : Fin 16) :
    matmul dot_S10000x128_S128x16_S10000x16_1_0_0_1_n_n none x w (constant (F := Ideal) S10000x16 .f32 0x00000000#32) (ix2 p j)
      = ∑ l : Fin 128, x (ix2 p l) * w (ix2 l j) := by
  refine (Ideal.matmul_constant_zero_apply dot_S10000x128_S128x16_S10000x16_1_0_0_1_n_n none x w (ix2 p j)).trans ?_
  rw [← Equiv.sum_comp (contrEquiv1 dot_S10000x128_S128x16_S10000x16_1_0_0_1_n_n 128 rfl rfl).symm]
  refine Finset.sum_congr rfl fun l _ => ?_
  have hk := contrEquiv1_symm_val dot_S10000x128_S128x16_S10000x16_1_0_0_1_n_n 128 rfl rfl l
  have el : dot_S10000x128_S128x16_S10000x16_1_0_0_1_n_n.lhsIdx (ix2 p j) ((contrEquiv1 dot_S10000x128_S128x16_S10000x16_1_0_0_1_n_n 128 rfl rfl).symm l) = ix2 p l := funext fun a => Fin.ext (by
    match a with
    | ⟨0, _⟩ => exact lhs_xw_0 _ _
    | ⟨1, _⟩ => exact (lhs_xw_1 _ _).trans hk)
  have er : dot_S10000x128_S128x16_S10000x16_1_0_0_1_n_n.rhsIdx (ix2 p j) ((contrEquiv1 dot_S10000x128_S128x16_S10000x16_1_0_0_1_n_n 128 rfl rfl).symm l) = ix2 l j := funext fun a => Fin.ext (by
    match a with
    | ⟨0, _⟩ => exact (rhs_xw_0 _ _).trans hk
    | ⟨1, _⟩ => exact rhs_xw_1 _ _)
  rw [el, er]

private theorem lhs_as_0 (i : S200x16.Idx) (q : dot_S200x10000_S10000x16_S200x16_1_0_0_1_n_n.contr.Idx) :
    (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
private theorem lhs_as_1 (i : S200x16.Idx) (q : dot_S200x10000_S10000x16_S200x16_1_0_0_1_n_n.contr.Idx) :
    (dot_S200x10000_S10000x16_S200x16_1_0_0_1_n_n.lhsIdx i q 1).val = (q ⟨0, by decide⟩).val :=
  dot_S200x10000_S10000x16_S200x16_1_0_0_1_n_n.lhsIdx_val_of_single rfl i q
private theorem rhs_as_0 (i : S200x16.Idx) (q : dot_S200x10000_S10000x16_S200x16_1_0_0_1_n_n.contr.Idx) :
    (dot_S200x10000_S10000x16_S200x16_1_0_0_1_n_n.rhsIdx i q 0).val = (q ⟨0, by decide⟩).val :=
  dot_S200x10000_S10000x16_S200x16_1_0_0_1_n_n.rhsIdx_val_of_single rfl i q
private theorem rhs_as_1 (i : S200x16.Idx) (q : dot_S200x10000_S10000x16_S200x16_1_0_0_1_n_n.contr.Idx) :
    (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-- A 200 × 10000 by 10000 × 16 product into a zero accumulator is the plain sum over the contracted axis. -/
private theorem matmul_as_apply (x : FVec Ideal S200x10000 .f32) (w : FVec Ideal S10000x16 .f32) (p : Fin 200) (j : Fin 16) :
    matmul dot_S200x10000_S10000x16_S200x16_1_0_0_1_n_n none x w (constant (F := Ideal) S200x16 .f32 0x00000000#32) (ix2 p j)
      = ∑ l : Fin 10000, x (ix2 p l) * w (ix2 l j) := by
  refine (Ideal.matmul_constant_zero_apply dot_S200x10000_S10000x16_S200x16_1_0_0_1_n_n none x w (ix2 p j)).trans ?_
  rw [← Equiv.sum_comp (contrEquiv1 dot_S200x10000_S10000x16_S200x16_1_0_0_1_n_n 10000 rfl rfl).symm]
  refine Finset.sum_congr rfl fun l _ => ?_
  have hk := contrEquiv1_symm_val dot_S200x10000_S10000x16_S200x16_1_0_0_1_n_n 10000 rfl rfl l
  have el : dot_S200x10000_S10000x16_S200x16_1_0_0_1_n_n.lhsIdx (ix2 p j) ((contrEquiv1 dot_S200x10000_S10000x16_S200x16_1_0_0_1_n_n 10000 rfl rfl).symm l) = ix2 p l := funext fun a => Fin.ext (by
    match a with
    | ⟨0, _⟩ => exact lhs_as_0 _ _
    | ⟨1, _⟩ => exact (lhs_as_1 _ _).trans hk)
  have er : dot_S200x10000_S10000x16_S200x16_1_0_0_1_n_n.rhsIdx (ix2 p j) ((contrEquiv1 dot_S200x10000_S10000x16_S200x16_1_0_0_1_n_n 10000 rfl rfl).symm l) = ix2 l j := funext fun a => Fin.ext (by
    match a with
    | ⟨0, _⟩ => exact (rhs_as_0 _ _).trans hk
    | ⟨1, _⟩ => exact rhs_as_1 _ _)
  rw [el, er]

private theorem lhs_hw_0 (i : S200x16.Idx) (q : dot_S200x16_S16x16_S200x16_1_0_0_1_n_n.contr.Idx) :
    (dot_S200x16_S16x16_S200x16_1_0_0_1_n_n.lhsIdx i q 0).val = (i 0).val := by
  unfold DotDims.lhsIdx
  rw [dif_neg (show ¬(0 : Fin S200x16.rank) ∈ dot_S200x16_S16x16_S200x16_1_0_0_1_n_n.lhsBatch by decide), dif_pos (show (0 : Fin S200x16.rank) ∈ dot_S200x16_S16x16_S200x16_1_0_0_1_n_n.lhsNonContracting by decide)]
  rfl
private theorem lhs_hw_1 (i : S200x16.Idx) (q : dot_S200x16_S16x16_S200x16_1_0_0_1_n_n.contr.Idx) :
    (dot_S200x16_S16x16_S200x16_1_0_0_1_n_n.lhsIdx i q 1).val = (q ⟨0, by decide⟩).val :=
  dot_S200x16_S16x16_S200x16_1_0_0_1_n_n.lhsIdx_val_of_single rfl i q
private theorem rhs_hw_0 (i : S200x16.Idx) (q : dot_S200x16_S16x16_S200x16_1_0_0_1_n_n.contr.Idx) :
    (dot_S200x16_S16x16_S200x16_1_0_0_1_n_n.rhsIdx i q 0).val = (q ⟨0, by decide⟩).val :=
  dot_S200x16_S16x16_S200x16_1_0_0_1_n_n.rhsIdx_val_of_single rfl i q
private theorem rhs_hw_1 (i : S200x16.Idx) (q : dot_S200x16_S16x16_S200x16_1_0_0_1_n_n.contr.Idx) :
    (dot_S200x16_S16x16_S200x16_1_0_0_1_n_n.rhsIdx i q 1).val = (i 1).val := by
  unfold DotDims.rhsIdx
  rw [dif_neg (show ¬(1 : Fin S16x16.rank) ∈ dot_S200x16_S16x16_S200x16_1_0_0_1_n_n.rhsBatch by decide), dif_pos (show (1 : Fin S16x16.rank) ∈ dot_S200x16_S16x16_S200x16_1_0_0_1_n_n.rhsNonContracting by decide)]
  rfl

/-- A 200 × 16 by 16 × 16 product into a zero accumulator is the plain sum over the contracted axis. -/
private theorem matmul_hw_apply (x : FVec Ideal S200x16 .f32) (w : FVec Ideal S16x16 .f32) (p : Fin 200) (j : Fin 16) :
    matmul dot_S200x16_S16x16_S200x16_1_0_0_1_n_n none x w (constant (F := Ideal) S200x16 .f32 0x00000000#32) (ix2 p j)
      = ∑ l : Fin 16, x (ix2 p l) * w (ix2 l j) := by
  refine (Ideal.matmul_constant_zero_apply dot_S200x16_S16x16_S200x16_1_0_0_1_n_n none x w (ix2 p j)).trans ?_
  rw [← Equiv.sum_comp (contrEquiv1 dot_S200x16_S16x16_S200x16_1_0_0_1_n_n 16 rfl rfl).symm]
  refine Finset.sum_congr rfl fun l _ => ?_
  have hk := contrEquiv1_symm_val dot_S200x16_S16x16_S200x16_1_0_0_1_n_n 16 rfl rfl l
  have el : dot_S200x16_S16x16_S200x16_1_0_0_1_n_n.lhsIdx (ix2 p j) ((contrEquiv1 dot_S200x16_S16x16_S200x16_1_0_0_1_n_n 16 rfl rfl).symm l) = ix2 p l := funext fun a => Fin.ext (by
    match a with
    | ⟨0, _⟩ => exact lhs_hw_0 _ _
    | ⟨1, _⟩ => exact (lhs_hw_1 _ _).trans hk)
  have er : dot_S200x16_S16x16_S200x16_1_0_0_1_n_n.rhsIdx (ix2 p j) ((contrEquiv1 dot_S200x16_S16x16_S200x16_1_0_0_1_n_n 16 rfl rfl).symm l) = ix2 l j := funext fun a => Fin.ext (by
    match a with
    | ⟨0, _⟩ => exact (rhs_hw_0 _ _).trans hk
    | ⟨1, _⟩ => exact rhs_hw_1 _ _)
  rw [el, er]

/-! ## The body's values at an index, over arbitrary blocks -/

private theorem pay1_apply (x : FVec Ideal S10000x128 .f32) (w : FVec Ideal S128x16 .f32) (k : Fin 10000) (j : Fin 16) :
    k0_pay1 (F := Ideal) x w (ix2 k j) = ∑ f : Fin 128, x (ix2 k f) * w (ix2 f j) := by
  unfold Gen.k0_pay1
  refine (congrFun (shapeCast_self _ shapeCasts_S10000x16_S10000x16) (ix2 k j)).trans ?_
  exact matmul_xw_apply x w k j

/-- A bias of shape [1, 16] broadcast down 200 rows is read at its column. -/
private theorem bias_rows_apply (b : FVec Ideal S1x16 .f32) (p : Fin 200) (j : Fin 16) :
    broadcastTo S200x16 (shapeCast S1x16 b shapeCasts_S1x16_S1x16) broadcasts_S1x16_S200x16 (ix2 p j) = b (ix2 (0 : Fin 1) j) := by
  refine (broadcastTo_apply _ broadcasts_S1x16_S200x16 (ix2 p j) (ix2 (0 : Fin 1) j) ?_).trans ?_
  · intro a
    match a with
    | ⟨0, _⟩ => rfl
    | ⟨1, _⟩ => show j.val = if (16 : ℕ) = 1 then 0 else j.val; rw [if_neg (by decide)]
  · exact congrFun (shapeCast_self b shapeCasts_S1x16_S1x16) _

private theorem pay2_apply (a : FVec Ideal S200x10000 .f32) (s : FVec Ideal S10000x16 .f32) (b : FVec Ideal S1x16 .f32) (p : Fin 200) (j : Fin 16) :
    k0_pay2 (F := Ideal) a s b (ix2 p j) = max (∑ k : Fin 10000, a (ix2 p k) * s (ix2 k j) + b (ix2 (0 : Fin 1) j)) 0 := by
  unfold Gen.k0_pay2
  refine (maximumf_apply _ _ (ix2 p j)).trans ?_
  refine congrArg₂ max ?_ ?_
  · refine (addf_apply _ _ (ix2 p j)).trans ?_
    exact congrArg₂ (· + ·) (matmul_as_apply a s p j) (bias_rows_apply b p j)
  · exact Ideal.ofBits_zero_f32

private theorem pay3_apply (a : FVec Ideal S200x10000 .f32) (s : FVec Ideal S10000x16 .f32) (b : FVec Ideal S1x16 .f32) (w : FVec Ideal S16x16 .f32) (p : Fin 200) (j : Fin 16) :
    k0_pay3 (F := Ideal) a s b w (ix2 p j) = ∑ l : Fin 16, k0_pay2 (F := Ideal) a s b (ix2 p l) * w (ix2 l j) := by
  unfold Gen.k0_pay3
  refine (congrFun (shapeCast_self _ shapeCasts_S200x16_S200x16) (ix2 p j)).trans ?_
  exact matmul_hw_apply (k0_pay2 (F := Ideal) a s b) w p j

/-- Row `y 0` is row `y 0 % 200` of block `y 0 / 200`, and a first-pass point is on the adjacency block of its own number. -/
private theorem row_split (y : S10000x16.Idx) : adjBlk (rowPt y) * 200 + (rowIn y).val = (y 0).val := by
  have hy := row_lt y
  have hv : (rowPt y).val = (y 0).val / 200 := rfl
  show (if (rowPt y).val < 50 then (rowPt y).val else 99 - (rowPt y).val) * 200 + (y 0).val % 200 = (y 0).val
  rw [hv, if_pos (by omega)]; omega

/-! ## The first pass -/

theorem sup1_apply (c : Dev nD) (k : Fin 10000) (j : Fin 16) :
    sup1 (F := Ideal) m c (ix2 k j) = support₁ (mat (m ((c.tc : Thread nD τ).loc main_arg0))) (mat (m ((c.tc : Thread nD τ).loc main_arg2))) k j := by
  unfold sup1 support₁
  refine (pay1_apply _ _ k j).trans ?_
  refine Finset.sum_congr rfl fun f _ => ?_
  exact congrArg₂ (· * ·) (featB_apply m c _ k f) (w1B_apply m c _ f j)

theorem hidB_apply (c : Dev nD) (t : Fin cfg0.N) (p : Fin 200) (j : Fin 16) :
    hidB (F := Ideal) m c t (ix2 p j)
      = hidden (mat (m ((c.tc : Thread nD τ).loc main_arg0))) (mat (m ((c.tc : Thread nD τ).loc main_arg1))) (mat (m ((c.tc : Thread nD τ).loc main_arg2))) (vec (m ((c.tc : Thread nD τ).loc main_arg3))) ⟨adjBlk t * 200 + p.val, by have := adjBlk_lt t; omega⟩ j := by
  unfold hidB Cert.Conv.hidden
  refine (pay2_apply _ _ _ p j).trans ?_
  refine congrArg₂ max (congrArg₂ (· + ·) ?_ (b1B_apply m c t 0 j)) rfl
  refine Finset.sum_congr rfl fun k _ => ?_
  exact congrArg₂ (· * ·) (adjB_apply m c t p k) (sup1_apply m c k j)

theorem hidArr_apply (c : Dev nD) (y : S10000x16.Idx) :
    hidArr (F := Ideal) m c y
      = hidden (mat (m ((c.tc : Thread nD τ).loc main_arg0))) (mat (m ((c.tc : Thread nD τ).loc main_arg1))) (mat (m ((c.tc : Thread nD τ).loc main_arg2))) (vec (m ((c.tc : Thread nD τ).loc main_arg3))) ⟨(y 0).val, (y 0).isLt⟩ ⟨(y 1).val, (y 1).isLt⟩ := by
  unfold hidArr
  refine (hidB_apply m c (rowPt y) (rowIn y) (colOf y)).trans ?_
  exact congrArg₂ (Cert.Conv.hidden _ _ _ _) (Fin.ext (row_split y)) (Fin.ext rfl)

/-- support₂'s block at a point is that point's hidden block times W₂. -/
private theorem sup2B_apply (c : Dev nD) (t : Fin cfg0.N) (p : Fin 200) (j : Fin 16) :
    sup2B (F := Ideal) m c t (ix2 p j) = ∑ l : Fin 16, hidB (F := Ideal) m c t (ix2 p l) * w2B (F := Ideal) m c t (ix2 l j) := by
  unfold sup2B hidB
  exact pay3_apply _ _ _ _ p j

theorem sup2_apply (c : Dev nD) (k : Fin 10000) (j : Fin 16) :
    sup2 (F := Ideal) m c (ix2 k j)
      = support₂ (mat (m ((c.tc : Thread nD τ).loc main_arg0))) (mat (m ((c.tc : Thread nD τ).loc main_arg1))) (mat (m ((c.tc : Thread nD τ).loc main_arg2))) (vec (m ((c.tc : Thread nD τ).loc main_arg3))) (mat (m ((c.tc : Thread nD τ).loc main_arg4))) k j := by
  unfold sup2 support₂
  refine (sup2B_apply m c (rowPt (ix2 k j)) (rowIn (ix2 k j)) (colOf (ix2 k j))).trans ?_
  refine Finset.sum_congr rfl fun l _ => ?_
  refine congrArg₂ (· * ·) ?_ (w2B_apply m c _ l j)
  refine (hidB_apply m c _ _ l).trans ?_
  exact congrArg (fun r => Cert.Conv.hidden _ _ _ _ r l) (Fin.ext (row_split (ix2 k j)))

end Cert.KernelIdeal.Conv

end
-- ==== Proof.KernelIdeal.ValuesOut.lean ====
/-
  The second pass at the ideal instance, read at an index: the output block of point t is rows of block 99 − t of the
  log-softmax of A · support₂ + b₂, in the arrangement that adds the row maximum back to the log of the shifted sum
  before subtracting. The row maximum is the fold of max from −∞ over the row's 16 entries, the shifted sum a plain
  sum over them; the [200] → [200, 1] → [200, 16] reshaping and broadcasting of a per-row value is read at its row.
-/
import proofs.«150757_g22213570854912_cont_8to1_1494_15_alg».proof.Proof.KernelIdeal.ValuesHid

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

open Cert.Conv

/-! ## The per-row reductions and the column forms, read at an index -/

private theorem fmt32 : FKind.Formats .f32 := .inl rfl
private theorem accMax : (0xFF800000#32 : BitVec 32) = FKind.maximumf.neutral .f32 fmt32 := rfl
private theorem accAdd : (0x00000000#32 : BitVec 32) = FKind.add.neutral .f32 fmt32 := rfl

/-- The row maximum: the fold of max from −∞ over the row's 16 entries. -/
private theorem rowMax_apply (v : FVec Ideal S200x16 .f32) (p : Fin 200) :
    multiReduction (F := Ideal) .maximumf [1] S200 v 0xFF800000#32 reduces_S200x16_S200 fmt32 accMax (ix1 p)
      = (Finset.univ : Finset (Fin 16)).fold max ⊥ (fun k => v (ix2 p k)) := by
  refine (Ideal.multiReduction_maximumf_single v _ reduces_S200x16_S200 fmt32 accMax (ix1 p)).trans ?_
  have e : (v ∘ reduces_S200x16_S200.lift (ix1 p)) = fun k : Fin 16 => v (ix2 p k) :=
    funext fun k => congrArg v (funext fun c => Fin.ext (by
      match c with
      | ⟨0, _⟩ => rfl
      | ⟨1, _⟩ => rfl))
  have hb : FloatOps.ofBits (F := Ideal) .f32 0xFF800000#32 = (⊥ : EReal) := by
    show Ideal.ofBits .f32 0xFF800000#32 = ⊥
    simp [Ideal.ofBits, Ideal.ieee]
  show (Finset.univ : Finset (Fin 16)).fold max (FloatOps.ofBits (F := Ideal) .f32 0xFF800000#32) (v ∘ reduces_S200x16_S200.lift (ix1 p)) = _
  rw [e, hb]
  rfl

/-- The row sum: the plain sum over the row's 16 entries. -/
private theorem rowSum_apply (v : FVec Ideal S200x16 .f32) (p : Fin 200) :
    multiReduction (F := Ideal) .add [1] S200 v 0x00000000#32 reduces_S200x16_S200 fmt32 accAdd (ix1 p)
      = ∑ k : Fin 16, v (ix2 p k) := by
  refine (Ideal.multiReduction_add_single v _ reduces_S200x16_S200 fmt32 accAdd (ix1 p)).trans ?_
  show ∑ k : Fin 16, v (reduces_S200x16_S200.lift (ix1 p) k) = _
  refine Finset.sum_congr rfl fun k _ => congrArg v (funext fun c => Fin.ext (by
      match c with
      | ⟨0, _⟩ => rfl
      | ⟨1, _⟩ => rfl))

/-- A per-row value [200] viewed as a column [200, 1] reads its row. -/
private theorem col_apply {α : Type} (x : S200.Idx → α) (p : Fin 200) (u : Fin 1) :
    shapeCast S200x1 x shapeCasts_S200_S200x1 (ix2 p u) = x (ix1 p) :=
  shapeCast_apply x _ _ _ (by
    have hu : u.val = 0 := by omega
    rw [Shape.rowMajor_val_two, Shape.rowMajor_val_one]
    show p.val = p.val * 1 + u.val
    omega)

/-- A column [200, 1] broadcast along the row [200, 16] reads its row. -/
private theorem bcol_apply {α : Type} (x : S200x1.Idx → α) (p : Fin 200) (j : Fin 16) :
    broadcastTo S200x16 x broadcasts_S200x1_S200x16 (ix2 p j) = x (ix2 p (0 : Fin 1)) := by
  refine broadcastTo_apply x _ (ix2 p j) (ix2 p (0 : Fin 1)) fun ax => ?_
  match ax with
  | ⟨0, _⟩ =>
    show p.val = if (200 : ℕ) = 1 then 0 else p.val
    rw [if_neg (by decide)]
  | ⟨1, _⟩ =>
    show (0 : ℕ) = if (1 : ℕ) = 1 then 0 else j.val
    rw [if_pos rfl]

private theorem exp_apply {s : Shape} (v : FVec Ideal s .f32) (i : s.Idx) : exp v i = Ideal.exp (v i) := rfl
private theorem log_apply {s : Shape} (v : FVec Ideal s .f32) (i : s.Idx) : log v i = Ideal.log (v i) := rfl

/-! ## The matrix product into a zero accumulator, read at an index -/

private theorem lhs_out_0 (i : S200x16.Idx) (q : dot_S200x10000_S10000x16_S200x16_1_0_0_1_n_n.contr.Idx) :
    (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
private theorem lhs_out_1 (i : S200x16.Idx) (q : dot_S200x10000_S10000x16_S200x16_1_0_0_1_n_n.contr.Idx) :
    (dot_S200x10000_S10000x16_S200x16_1_0_0_1_n_n.lhsIdx i q 1).val = (q ⟨0, by decide⟩).val :=
  dot_S200x10000_S10000x16_S200x16_1_0_0_1_n_n.lhsIdx_val_of_single rfl i q
private theorem rhs_out_0 (i : S200x16.Idx) (q : dot_S200x10000_S10000x16_S200x16_1_0_0_1_n_n.contr.Idx) :
    (dot_S200x10000_S10000x16_S200x16_1_0_0_1_n_n.rhsIdx i q 0).val = (q ⟨0, by decide⟩).val :=
  dot_S200x10000_S10000x16_S200x16_1_0_0_1_n_n.rhsIdx_val_of_single rfl i q
private theorem rhs_out_1 (i : S200x16.Idx) (q : dot_S200x10000_S10000x16_S200x16_1_0_0_1_n_n.contr.Idx) :
    (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-- A [200, 10000] block times a [10000, 16] array into the zero accumulator: the plain sum over the contracted axis. -/
private theorem mm_out_apply (a : FVec Ideal S200x10000 .f32) (s : FVec Ideal S10000x16 .f32) (p : Fin 200) (j : Fin 16) :
    matmul dot_S200x10000_S10000x16_S200x16_1_0_0_1_n_n none a s (constant (F := Ideal) S200x16 .f32 0x00000000#32) (ix2 p j)
      = ∑ k : Fin 10000, a (ix2 p k) * s (ix2 k j) := by
  simp only [matmul]
  rw [Ideal.matmul_constant_zero_apply, ← Equiv.sum_comp (ValueIdx.contrEquiv1 dot_S200x10000_S10000x16_S200x16_1_0_0_1_n_n 10000 rfl rfl).symm]
  refine Finset.sum_congr rfl fun k _ => ?_
  have hk := ValueIdx.contrEquiv1_symm_val dot_S200x10000_S10000x16_S200x16_1_0_0_1_n_n 10000 rfl rfl k
  have el : dot_S200x10000_S10000x16_S200x16_1_0_0_1_n_n.lhsIdx (ix2 p j) ((ValueIdx.contrEquiv1 dot_S200x10000_S10000x16_S200x16_1_0_0_1_n_n 10000 rfl rfl).symm k) = ix2 p k := funext fun c => Fin.ext (by
    match c with
    | ⟨0, _⟩ => exact lhs_out_0 _ _
    | ⟨1, _⟩ => exact (lhs_out_1 _ _).trans hk)
  have er : dot_S200x10000_S10000x16_S200x16_1_0_0_1_n_n.rhsIdx (ix2 p j) ((ValueIdx.contrEquiv1 dot_S200x10000_S10000x16_S200x16_1_0_0_1_n_n 10000 rfl rfl).symm k) = ix2 k j := funext fun c => Fin.ext (by
    match c with
    | ⟨0, _⟩ => exact (rhs_out_0 _ _).trans hk
    | ⟨1, _⟩ => exact rhs_out_1 _ _)
  rw [el, er]

/-! ## The logits block and the log-softmax of a block, as functions of vectors -/

/-- The logits block: the product plus the bias row broadcast down the rows. -/
private def lgts (a : FVec Ideal S200x10000 .f32) (s : FVec Ideal S10000x16 .f32) (b : FVec Ideal S1x16 .f32) : FVec Ideal S200x16 .f32 :=
  addf (matmul dot_S200x10000_S10000x16_S200x16_1_0_0_1_n_n none a s (constant (F := Ideal) S200x16 .f32 0x00000000#32))
    (broadcastTo S200x16 (shapeCast S1x16 b shapeCasts_S1x16_S1x16) broadcasts_S1x16_S200x16)

private theorem lgts_apply (a : FVec Ideal S200x10000 .f32) (s : FVec Ideal S10000x16 .f32) (b : FVec Ideal S1x16 .f32) (p : Fin 200) (j : Fin 16) :
    lgts a s b (ix2 p j) = ∑ k : Fin 10000, a (ix2 p k) * s (ix2 k j) + b (ix2 (0 : Fin 1) j) := by
  unfold lgts
  rw [addf_apply, mm_out_apply, shapeCast_self, broadcastTo_1b_ab_apply]

/-- The log-softmax of a block in the arrangement that adds the row maximum back before subtracting. -/
private def lsm (v17 : FVec Ideal S200x16 .f32) : FVec Ideal S200x16 .f32 :=
  have v18 : FVec Ideal S200 .f32 := multiReduction .maximumf [1] S200 v17 0xFF800000#32 reduces_S200x16_S200 fmt32 accMax
  have v19 : FVec Ideal S200x1 .f32 := shapeCast S200x1 v18 shapeCasts_S200_S200x1
  have v20 : FVec Ideal S200x16 .f32 := broadcastTo S200x16 v19 broadcasts_S200x1_S200x16
  have v21 : FVec Ideal S200x16 .f32 := subf v17 v20
  have v22 : FVec Ideal S200x16 .f32 := exp v21
  have v23 : FVec Ideal S200 .f32 := multiReduction .add [1] S200 v22 0x00000000#32 reduces_S200x16_S200 fmt32 accAdd
  have v24 : FVec Ideal S200x1 .f32 := shapeCast S200x1 v23 shapeCasts_S200_S200x1
  have v25 : FVec Ideal S200x1 .f32 := log v24
  have v26 : FVec Ideal S200x1 .f32 := addf v25 v19
  have v27 : FVec Ideal S200x16 .f32 := broadcastTo S200x16 v26 broadcasts_S200x1_S200x16
  subf v17 v27

private theorem pay4_eq (a : Vec Ideal S200x10000 .f32) (s : Vec Ideal S10000x16 .f32) (b : Vec Ideal S1x16 .f32) :
    k0_pay4 a s b = lsm (lgts a s b) := rfl

private theorem lsm_apply (v : FVec Ideal S200x16 .f32) (p : Fin 200) (j : Fin 16) :
    lsm v (ix2 p j)
      = v (ix2 p j) - (Ideal.log (∑ k : Fin 16, Ideal.exp (v (ix2 p k) - (Finset.univ : Finset (Fin 16)).fold max ⊥ (fun k => v (ix2 p k))))
          + (Finset.univ : Finset (Fin 16)).fold max ⊥ (fun k => v (ix2 p k))) := by
  unfold lsm
  simp only [subf_apply, addf_apply, bcol_apply, col_apply, log_apply]
  rw [rowSum_apply]
  simp only [exp_apply, subf_apply, bcol_apply, col_apply]
  rw [rowMax_apply v p]

variable (m : (ℓ : Loc nD τ sig) → Buf (Elt Ideal) ℓ)

/-- The logits block of point t: rows of block adjBlk t of A · support₂ + b₂. -/
private theorem lgts_blk (c : Dev nD) (t : Fin cfg0.N) (p : Fin 200) (j : Fin 16) :
    lgts (adjB (F := Ideal) m c t) (sup2 (F := Ideal) m c) (b2B (F := Ideal) m c t) (ix2 p j)
      = logit (mat (m ((c.tc : Thread nD τ).loc main_arg0))) (mat (m ((c.tc : Thread nD τ).loc main_arg1))) (mat (m ((c.tc : Thread nD τ).loc main_arg2))) (vec (m ((c.tc : Thread nD τ).loc main_arg3))) (mat (m ((c.tc : Thread nD τ).loc main_arg4))) (vec (m ((c.tc : Thread nD τ).loc main_arg5)))
          ⟨adjBlk t * 200 + p.val, by have := adjBlk_lt t; omega⟩ j := by
  refine (lgts_apply _ _ _ p j).trans ?_
  unfold logit
  refine congrArg₂ (· + ·) (Finset.sum_congr rfl fun k _ => ?_) (b2B_apply m c t (0 : Fin 1) j)
  exact congrArg₂ (· * ·) (adjB_apply m c t p k) (sup2_apply m c k j)

theorem outB_apply (c : Dev nD) (t : Fin cfg0.N) (p : Fin 200) (j : Fin 16) :
    outB (F := Ideal) m c t (ix2 p j)
      = logSoftmaxAddBack (mat (m ((c.tc : Thread nD τ).loc main_arg0))) (mat (m ((c.tc : Thread nD τ).loc main_arg1))) (mat (m ((c.tc : Thread nD τ).loc main_arg2))) (vec (m ((c.tc : Thread nD τ).loc main_arg3))) (mat (m ((c.tc : Thread nD τ).loc main_arg4))) (vec (m ((c.tc : Thread nD τ).loc main_arg5)))
          ⟨adjBlk t * 200 + p.val, by have := adjBlk_lt t; omega⟩ j := by
  unfold outB
  refine (congrFun (pay4_eq _ _ _) (ix2 p j)).trans ?_
  refine (lsm_apply _ p j).trans ?_
  simp only [lgts_blk m c t p]
  rfl

theorem outArr_apply (c : Dev nD) (y : S10000x16.Idx) :
    outArr (F := Ideal) m c y
      = logSoftmaxAddBack (mat (m ((c.tc : Thread nD τ).loc main_arg0))) (mat (m ((c.tc : Thread nD τ).loc main_arg1))) (mat (m ((c.tc : Thread nD τ).loc main_arg2))) (vec (m ((c.tc : Thread nD τ).loc main_arg3))) (mat (m ((c.tc : Thread nD τ).loc main_arg4))) (vec (m ((c.tc : Thread nD τ).loc main_arg5)))
          ⟨(y 0).val, (y 0).isLt⟩ ⟨(y 1).val, (y 1).isLt⟩ := by
  unfold outArr
  refine (outB_apply m c (outPt y) (rowIn y) (colOf y)).trans ?_
  have h : adjBlk (outPt y) * 200 + (rowIn y).val = (y 0).val := by
    have hy := row_lt y
    have hv : (outPt y).val = 99 - (y 0).val / 200 := rfl
    have hr : (rowIn y).val = (y 0).val % 200 := rfl
    unfold adjBlk
    rw [hv, hr]
    split <;> omega
  have hrow : (⟨adjBlk (outPt y) * 200 + (rowIn y).val, by have := adjBlk_lt (outPt y); have := (rowIn y).isLt; omega⟩ : Fin 10000) = ⟨(y 0).val, (y 0).isLt⟩ := Fin.ext h
  rw [hrow]
  rfl

end Cert.KernelIdeal.Conv

end
-- ==== Proof.RefValues.lean ====
/-
  The reference's two results, read at an index at the ideal instance, are the specification's formulas of the
  argument arrays: the hidden layer, and the log-softmax with the row shifted first. Each host operation is read at
  an index by its stage lemma; the one stage those lemmas leave, the row maximum, is a fold of max over the row.
-/
import proofs.«150757_g22213570854912_cont_8to1_1494_15_alg».proof.Proof.RefRead
import proofs.«150757_g22213570854912_cont_8to1_1494_15_alg».proof.Proof.ConvSpec
import Idealize.ShloMosaic.PureOps.Ideal.Laws
import Idealize.ShloMosaic.PureOps.Reduce
import Idealize.ShloMosaic.Lib.ValueIdx

noncomputable section

namespace Cert.ReferenceIdeal.Closed

open Cert.ReferenceIdeal Cert.ReferenceIdeal.Gen Cert.ReferenceIdeal.ReadP Idealize.ShloMosaic Idealize.ShloMosaic.ValueIdx Cert.Conv

/-- The bit pattern of −∞ reads as ⊥. -/
private theorem negInf_eq : Ideal.ofBits .f32 0xFF800000#32 = (⊥ : EReal) := by
  simp [Ideal.ofBits, Ideal.ieee]

/-- X · W₁ at (k, j). -/
private theorem v0_eq (x0 : (⟨S10000x128, .f32⟩ : BufTy).Contents (Elt Ideal)) (x2 : (⟨S128x16, .f32⟩ : BufTy).Contents (Elt Ideal)) (k : Fin 10000) (j : Fin 16) :
    val_main_v0 (F := Ideal) x0 x2 (ix2 k j) = support₁ (mat x0) (mat x2) k j := by
  rw [val_main_v0_apply]
  unfold support₁ mat
  refine Finset.sum_congr rfl fun f _ => ?_
  have e1 : lidx_main_v0 (ix2 k j) f = ix2 k f :=
    funext fun a => Fin.ext (by match a with | ⟨0, _⟩ => rfl | ⟨1, _⟩ => rfl)
  have e2 : ridx_main_v0 (ix2 k j) f = ix2 f j :=
    funext fun a => Fin.ext (by match a with | ⟨0, _⟩ => rfl | ⟨1, _⟩ => rfl)
  rw [e1, e2]

/-- The first bias, broadcast over the rows, at (k, j). -/
private theorem v3_eq (x3 : (⟨S16, .f32⟩ : BufTy).Contents (Elt Ideal)) (k : Fin 10000) (j : Fin 16) :
    val_main_v3 (F := Ideal) x3 (ix2 k j) = vec x3 j := by
  rw [val_main_v3_apply, val_main_v2_apply]
  unfold vec
  exact congrArg x3 (funext fun a => Fin.ext (by match a with | ⟨0, _⟩ => rfl))

/-- The hidden layer at (k, j). -/
private theorem v6_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (k : Fin 10000) (j : Fin 16) :
    val_main_v6 (F := Ideal) x0 x1 x2 x3 (ix2 k j) = hidden (mat x0) (mat x1) (mat x2) (vec x3) k j := by
  rw [val_main_v6_apply, val_main_v4_apply, val_main_v5_apply, val_main_cst_apply, v3_eq, val_main_v1_apply]
  simp only [Ideal.maximumf_def, Ideal.addf_def, Ideal.ofBits_def, Ideal.ofBits_zero_f32]
  unfold Conv.hidden
  congr 2
  refine Finset.sum_congr rfl fun f _ => ?_
  have e1 : lidx_main_v1 (ix2 k j) f = ix2 k f :=
    funext fun a => Fin.ext (by match a with | ⟨0, _⟩ => rfl | ⟨1, _⟩ => rfl)
  have e2 : ridx_main_v1 (ix2 k j) f = ix2 f j :=
    funext fun a => Fin.ext (by match a with | ⟨0, _⟩ => rfl | ⟨1, _⟩ => rfl)
  rw [e1, e2, v0_eq]
  rfl

theorem ref_hid (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (y : S10000x16.Idx) :
    val_main_v6 (F := Ideal) x0 x1 x2 x3 y
      = hidden (mat x0) (mat x1) (mat x2) (vec x3) ⟨(y 0).val, (y 0).isLt⟩ ⟨(y 1).val, (y 1).isLt⟩ := by
  obtain ⟨p, q, rfl⟩ : ∃ (p : Fin 10000) (q : Fin 16), y = ix2 p q := ⟨y 0, y 1, eq_ix2 y⟩
  exact v6_eq x0 x1 x2 x3 p q

/-- hidden · W₂ at (k, j). -/
private theorem v7_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (k : Fin 10000) (j : Fin 16) :
    val_main_v7 (F := Ideal) x0 x1 x2 x3 x4 (ix2 k j)
      = support₂ (mat x0) (mat x1) (mat x2) (vec x3) (mat x4) k j := by
  rw [val_main_v7_apply]
  unfold support₂
  refine Finset.sum_congr rfl fun l _ => ?_
  have e1 : lidx_main_v7 (ix2 k j) l = ix2 k l := funext fun a => Fin.ext (by match a with | ⟨0, _⟩ => rfl | ⟨1, _⟩ => rfl)
  have e2 : ridx_main_v7 (ix2 k j) l = ix2 l j := funext fun a => Fin.ext (by match a with | ⟨0, _⟩ => rfl | ⟨1, _⟩ => rfl)
  rw [e1, e2, v6_eq]
  rfl

/-- The second bias, broadcast over the rows, at (k, j). -/
private theorem v10_eq (x5 : (⟨S16, .f32⟩ : BufTy).Contents (Elt Ideal)) (k : Fin 10000) (j : Fin 16) :
    val_main_v10 (F := Ideal) x5 (ix2 k j) = vec x5 j := by
  rw [val_main_v10_apply, val_main_v9_apply]
  unfold vec
  exact congrArg x5 (funext fun a => Fin.ext (by match a with | ⟨0, _⟩ => rfl))

/-- The logits at (k, j). -/
private theorem v11_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) (j : Fin 16) :
    val_main_v11 (F := Ideal) x0 x1 x2 x3 x4 x5 (ix2 k j) = logit (mat x0) (mat x1) (mat x2) (vec x3) (mat x4) (vec x5) k j := by
  rw [val_main_v11_apply, v10_eq, val_main_v8_apply]
  simp only [Ideal.addf_def]
  unfold logit
  congr 1
  refine Finset.sum_congr rfl fun f _ => ?_
  have e1 : lidx_main_v8 (ix2 k j) f = ix2 k f := funext fun a => Fin.ext (by match a with | ⟨0, _⟩ => rfl | ⟨1, _⟩ => rfl)
  have e2 : ridx_main_v8 (ix2 k j) f = ix2 f j := funext fun a => Fin.ext (by match a with | ⟨0, _⟩ => rfl | ⟨1, _⟩ => rfl)
  rw [e1, e2, v7_eq]
  rfl

/-- The row maximum: the reduction over the second axis is the fold of max over the row, from −∞. -/
private theorem call0_v0_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) :
    val_main_call0_v0 (F := Ideal) x0 x1 x2 x3 x4 x5 (ix1 k) = rowMax (mat x0) (mat x1) (mat x2) (vec x3) (mat x4) (vec x5) k := by
  have h : S10000x16.Reduces [1] S10000 := by decide
  unfold val_main_call0_v0
  rw [Host.reduce_eq_fold_single FloatOps.maximumf _ _ reducesTo_S10000x16_S10000_d1 h h_S_,
    val_main_call0_cst_apply, Ideal.ofBits_def, negInf_eq]
  have hpt : ∀ j : Fin 16, val_main_v11 (F := Ideal) x0 x1 x2 x3 x4 x5 (h.lift (ix1 k) j)
      = logit (mat x0) (mat x1) (mat x2) (vec x3) (mat x4) (vec x5) k j := by
    intro j
    have e : h.lift (ix1 k) j = ix2 k j := funext fun a => Fin.ext (by match a with | ⟨0, _⟩ => rfl | ⟨1, _⟩ => rfl)
    rw [e, v11_eq]
  have hf : (val_main_v11 (F := Ideal) x0 x1 x2 x3 x4 x5 ∘ h.lift (ix1 k))
      = fun j : Fin 16 => logit (mat x0) (mat x1) (mat x2) (vec x3) (mat x4) (vec x5) k j := funext fun j => hpt j
  rw [hf]
  unfold rowMax
  rfl

/-- The maximum of −∞ and the row maximum is the row maximum. -/
private theorem call0_v2_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) :
    val_main_call0_v2 (F := Ideal) x0 x1 x2 x3 x4 x5 (ix1 k) = rowMax (mat x0) (mat x1) (mat x2) (vec x3) (mat x4) (vec x5) k := by
  rw [val_main_call0_v2_apply, val_main_call0_v1_apply, val_main_call0_cst_0_apply, call0_v0_eq]
  simp only [Ideal.maximumf_def, Ideal.ofBits_def, negInf_eq]
  exact max_bot_left _

/-- The row maximum broadcast back over the row, at (k, j). -/
private theorem call0_v4_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) (j : Fin 16) :
    val_main_call0_v4 (F := Ideal) x0 x1 x2 x3 x4 x5 (ix2 k j) = rowMax (mat x0) (mat x1) (mat x2) (vec x3) (mat x4) (vec x5) k := by
  rw [val_main_call0_v4_apply, val_main_call0_v3_apply]
  have e : idx_main_call0_v3 (idx_main_call0_v4 (ix2 k j)) = ix1 k := funext fun a => Fin.ext (by match a with | ⟨0, _⟩ => rfl)
  rw [e, call0_v2_eq]

/-- The shifted logits at (k, j). -/
private theorem call0_v5_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) (j : Fin 16) :
    val_main_call0_v5 (F := Ideal) x0 x1 x2 x3 x4 x5 (ix2 k j)
      = logit (mat x0) (mat x1) (mat x2) (vec x3) (mat x4) (vec x5) k j - rowMax (mat x0) (mat x1) (mat x2) (vec x3) (mat x4) (vec x5) k := by
  rw [val_main_call0_v5_apply, v11_eq, call0_v4_eq, Ideal.subf_def]

/-- The exponential of the shifted logits at (k, j). -/
private theorem call0_v6_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) (j : Fin 16) :
    val_main_call0_v6 (F := Ideal) x0 x1 x2 x3 x4 x5 (ix2 k j)
      = Ideal.exp (logit (mat x0) (mat x1) (mat x2) (vec x3) (mat x4) (vec x5) k j - rowMax (mat x0) (mat x1) (mat x2) (vec x3) (mat x4) (vec x5) k) := by
  rw [val_main_call0_v6_apply, call0_v5_eq, Ideal.hostUnary_exp_def]

/-- The row sum of those exponentials. -/
private theorem call0_v7_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) :
    val_main_call0_v7 (F := Ideal) x0 x1 x2 x3 x4 x5 (ix1 k)
      = ∑ j : Fin 16, Ideal.exp (logit (mat x0) (mat x1) (mat x2) (vec x3) (mat x4) (vec x5) k j - rowMax (mat x0) (mat x1) (mat x2) (vec x3) (mat x4) (vec x5) k) := by
  rw [val_main_call0_v7_apply, val_main_call0_cst_1_apply, Ideal.ofBits_def, Ideal.ofBits_zero_f32, zero_add]
  refine Finset.sum_congr rfl fun j _ => ?_
  have e : idx_main_call0_v7 (ix1 k) j = ix2 k j := funext fun a => Fin.ext (by match a with | ⟨0, _⟩ => rfl | ⟨1, _⟩ => rfl)
  rw [e, call0_v6_eq]

/-- The log of the row sum, broadcast back over the row, at (k, j). -/
private theorem call0_v10_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) (j : Fin 16) :
    val_main_call0_v10 (F := Ideal) x0 x1 x2 x3 x4 x5 (ix2 k j) = logSumShifted (mat x0) (mat x1) (mat x2) (vec x3) (mat x4) (vec x5) k := by
  rw [val_main_call0_v10_apply, val_main_call0_v9_apply, val_main_call0_v8_apply]
  have e : idx_main_call0_v8 (idx_main_call0_v10 (ix2 k j)) = ix1 k := funext fun a => Fin.ext (by match a with | ⟨0, _⟩ => rfl)
  rw [e, call0_v7_eq, Ideal.hostUnary_log_def]
  rfl

/-- The output at (k, j). -/
private theorem v12_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (k : Fin 10000) (j : Fin 16) :
    val_main_v12 (F := Ideal) x0 x1 x2 x3 x4 x5 (ix2 k j) = logSoftmaxShiftFirst (mat x0) (mat x1) (mat x2) (vec x3) (mat x4) (vec x5) k j := by
  rw [val_main_v12_apply, call0_v5_eq, call0_v10_eq, Ideal.subf_def]
  rfl

theorem ref_out (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (y : S10000x16.Idx) :
    val_main_v12 (F := Ideal) x0 x1 x2 x3 x4 x5 y
      = logSoftmaxShiftFirst (mat x0) (mat x1) (mat x2) (vec x3) (mat x4) (vec x5) ⟨(y 0).val, (y 0).isLt⟩ ⟨(y 1).val, (y 1).isLt⟩ := by
  obtain ⟨p, q, rfl⟩ : ∃ (p : Fin 10000) (q : Fin 16), y = ix2 p q := ⟨y 0, y 1, eq_ix2 y⟩
  exact v12_eq x0 x1 x2 x3 x4 x5 p q

end Cert.ReferenceIdeal.Closed

end
-- ==== Proof.ConvLaws.lean ====
/-
  The two ways of writing a row's log-softmax agree when every input entry is a real number. With logit and its row
  maximum m finite, logit − (L + m) = (logit − m) − L holds for every extended real L: for L real it is a real
  identity, and for L = ±∞ both sides are the same infinity. logit and m are finite because finite sums, products
  and maxima of reals are reals, and the fold of max from −∞ over a row of reals is one of its entries.
-/
import proofs.«150757_g22213570854912_cont_8to1_1494_15_alg».proof.Proof.ConvSpec

noncomputable section

namespace Cert.Conv

open Idealize.ShloMosaic

/-- Zero is a real number. -/
private theorem isReal_zero : IsReal 0 := ⟨0, EReal.coe_zero.symm⟩

/-- The sum of two reals is a real. -/
private theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two reals is a real. -/
private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The maximum of two reals is one of them, hence a real. -/
private theorem isReal_max {x y : EReal} (hx : IsReal x) (hy : IsReal y) : IsReal (max x y) := by
  rcases le_total x y with h | h
  · rw [max_eq_right h]; exact hy
  · rw [max_eq_left h]; exact hx

/-- A finite sum of reals is a real. -/
private theorem isReal_sum {ι : Type} (s : Finset ι) (f : ι → EReal) (h : ∀ i, IsReal (f i)) :
    IsReal (∑ i ∈ s, f i) := by
  classical
  induction s using Finset.induction_on with
  | empty => rw [Finset.sum_empty]; exact isReal_zero
  | insert a s ha ih => rw [Finset.sum_insert ha]; exact isReal_add (h a) ih

/-- The fold of max from −∞ over a nonempty finite family of reals is a real: after the first entry the running
    maximum is a real, and the maximum of two reals is a real. -/
private theorem isReal_fold_max {ι : Type} (s : Finset ι) (f : ι → EReal) (h : ∀ i, IsReal (f i)) :
    s.Nonempty → IsReal (s.fold max ⊥ f) := by
  classical
  induction s using Finset.induction_on with
  | empty => intro hne; exact absurd hne Finset.not_nonempty_empty
  | insert a s ha ih =>
    intro _
    rw [Finset.fold_insert ha]
    rcases s.eq_empty_or_nonempty with hs | hs
    · subst hs
      rw [Finset.fold_empty, max_bot_right]
      exact h a
    · exact isReal_max (h a) (ih hs)

/-- For l and m real and L any extended real, l − (L + m) = (l − m) − L. -/
private theorem coe_sub_add_coe (l m : ℝ) (L : EReal) :
    (l : EReal) - (L + (m : EReal)) = ((l : EReal) - (m : EReal)) - L := by
  induction L using EReal.rec with
  | bot => rw [EReal.bot_add, ← EReal.coe_sub, EReal.coe_sub_bot, EReal.coe_sub_bot]
  | coe x =>
    rw [← EReal.coe_add, ← EReal.coe_sub, ← EReal.coe_sub, ← EReal.coe_sub]
    congr 1
    ring
  | top => rw [EReal.top_add_coe, EReal.sub_top, EReal.sub_top]

variable (X : Fin 10000 → Fin 128 → EReal) (A : Fin 10000 → Fin 10000 → EReal) (W₁ : Fin 128 → Fin 16 → EReal)
  (b₁ : Fin 16 → EReal) (W₂ : Fin 16 → Fin 16 → EReal) (b₂ : Fin 16 → EReal)

/-- X · W₁ has real entries. -/
private theorem isReal_support₁ (hX : ∀ r f, IsReal (X r f)) (hW₁ : ∀ f j, IsReal (W₁ f j)) (k : Fin 10000)
    (j : Fin 16) : IsReal (support₁ X W₁ k j) := by
  unfold support₁
  exact isReal_sum _ _ (fun f => isReal_mul (hX k f) (hW₁ f j))

/-- The hidden layer has real entries. -/
private theorem isReal_hidden (hX : ∀ r f, IsReal (X r f)) (hA : ∀ r k, IsReal (A r k))
    (hW₁ : ∀ f j, IsReal (W₁ f j)) (hb₁ : ∀ j, IsReal (b₁ j)) (r : Fin 10000) (j : Fin 16) :
    IsReal (hidden X A W₁ b₁ r j) := by
  unfold hidden
  exact isReal_max
    (isReal_add (isReal_sum _ _ (fun k => isReal_mul (hA r k) (isReal_support₁ X W₁ hX hW₁ k j))) (hb₁ j))
    isReal_zero

/-- hidden · W₂ has real entries. -/
private theorem isReal_support₂ (hX : ∀ r f, IsReal (X r f)) (hA : ∀ r k, IsReal (A r k))
    (hW₁ : ∀ f j, IsReal (W₁ f j)) (hb₁ : ∀ j, IsReal (b₁ j)) (hW₂ : ∀ l j, IsReal (W₂ l j)) (k : Fin 10000)
    (j : Fin 16) : IsReal (support₂ X A W₁ b₁ W₂ k j) := by
  unfold support₂
  exact isReal_sum _ _ (fun l => isReal_mul (isReal_hidden X A W₁ b₁ hX hA hW₁ hb₁ k l) (hW₂ l j))

/-- The logits are real. -/
private theorem isReal_logit (hX : ∀ r f, IsReal (X r f)) (hA : ∀ r k, IsReal (A r k))
    (hW₁ : ∀ f j, IsReal (W₁ f j)) (hb₁ : ∀ j, IsReal (b₁ j)) (hW₂ : ∀ l j, IsReal (W₂ l j))
    (hb₂ : ∀ j, IsReal (b₂ j)) (r : Fin 10000) (j : Fin 16) : IsReal (logit X A W₁ b₁ W₂ b₂ r j) := by
  unfold logit
  exact isReal_add
    (isReal_sum _ _ (fun k => isReal_mul (hA r k) (isReal_support₂ X A W₁ b₁ W₂ hX hA hW₁ hb₁ hW₂ k j)))
    (hb₂ j)

/-- The row maximum of the logits is real. -/
private theorem isReal_rowMax (hX : ∀ r f, IsReal (X r f)) (hA : ∀ r k, IsReal (A r k))
    (hW₁ : ∀ f j, IsReal (W₁ f j)) (hb₁ : ∀ j, IsReal (b₁ j)) (hW₂ : ∀ l j, IsReal (W₂ l j))
    (hb₂ : ∀ j, IsReal (b₂ j)) (r : Fin 10000) : IsReal (rowMax X A W₁ b₁ W₂ b₂ r) := by
  unfold rowMax
  exact isReal_fold_max _ _ (fun j => isReal_logit X A W₁ b₁ W₂ b₂ hX hA hW₁ hb₁ hW₂ hb₂ r j)
    Finset.univ_nonempty

theorem logSoftmax_forms_agree (hX : ∀ r f, IsReal (X r f)) (hA : ∀ r k, IsReal (A r k)) (hW₁ : ∀ f j, IsReal (W₁ f j))
    (hb₁ : ∀ j, IsReal (b₁ j)) (hW₂ : ∀ l j, IsReal (W₂ l j)) (hb₂ : ∀ j, IsReal (b₂ j)) (r : Fin 10000) (j : Fin 16) :
    logSoftmaxAddBack X A W₁ b₁ W₂ b₂ r j = logSoftmaxShiftFirst X A W₁ b₁ W₂ b₂ r j := by
  obtain ⟨l, hl⟩ := isReal_logit X A W₁ b₁ W₂ b₂ hX hA hW₁ hb₁ hW₂ hb₂ r j
  obtain ⟨m, hm⟩ := isReal_rowMax X A W₁ b₁ W₂ b₂ hX hA hW₁ hb₁ hW₂ hb₂ r
  unfold logSoftmaxAddBack logSoftmaxShiftFirst
  rw [hl, hm]
  exact coe_sub_add_coe l m _

end Cert.Conv

end
-- ==== Proof.RealInputs.lean ====
/-
  Under the precondition every entry of every argument array is a real number: the precondition is the conjunction,
  array by array, of "every |x| is below +∞", and an extended real whose absolute value is below +∞ is neither
  infinity.
-/
import proofs.«150757_g22213570854912_cont_8to1_1494_15_alg».proof.Pre_finite_inputs
import proofs.«150757_g22213570854912_cont_8to1_1494_15_alg».proof.Proof.Gen.Pre_finite_inputs
import proofs.«150757_g22213570854912_cont_8to1_1494_15_alg».proof.Proof.ConvSpec
import Idealize.ShloMosaic.Lib.ReduceAll

noncomputable section

namespace Cert.Conv

open Idealize.ShloMosaic Cert.Pre_finite_inputs

/-- The rank-0 result has exactly one index. -/
private theorem subsingleton_S_ : Subsingleton S_.Idx := ⟨fun a b => funext fun d => d.elim0⟩

/-- An extended real x with max x (−x) < ⊤ is a real number: ⊤ fails on the left, ⊥ on the right (−⊥ = ⊤). -/
private theorem isReal_of_abs_lt_top (x : EReal) (h : max x (-x) < ⊤) : IsReal x := by
  induction x using EReal.rec with
  | bot => simp at h
  | coe r => exact ⟨r, rfl⟩
  | top => simp at h

/-- One element: the comparison |x| < +∞ coming out 1 says x is real. The pattern 0x7F800000 denotes ⊤. -/
private theorem isReal_of_cmp (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  by_cases hlt : max (x : EReal) (-(x : EReal)) < ⊤
  · exact isReal_of_abs_lt_top x hlt
  · simp [hlt] at h'

/-- One array of any shape: if the conjunction over all entries of "|x| < +∞" is 1, every entry is real. -/
private theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, IsReal (x i) := fun i =>
  haveI := subsingleton_S_
  isReal_of_cmp (x i) (Host.reduce_andi_all _ _ hr hu ValueIdx.ix0 e i)

theorem real_of_finite_inputs (x0 : FVec Ideal S10000x128 .f32) (x1 : FVec Ideal S10000x10000 .f32) (x2 : FVec Ideal S128x16 .f32)
    (x3 : FVec Ideal S16 .f32) (x4 : FVec Ideal S16x16 .f32) (x5 : FVec Ideal S16 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have e := congrFun h ValueIdx.ix0
  dsimp only [Cert.Pre_finite_inputs.fn, Cert.Pre_finite_inputs.fn_part1, andi] at e
  simp only [IntOp.andi_eq_one] at e
  obtain ⟨⟨⟨⟨⟨e0, e1⟩, e2⟩, e3⟩, e4⟩, e5⟩ := e
  exact ⟨all_real x0 _ _ _ e0, all_real x1 _ _ _ e1, all_real x2 _ _ _ e2, all_real x3 _ _ _ e3,
    all_real x4 _ _ _ e4, all_real x5 _ _ _ e5⟩

end Cert.Conv

end
-- ==== Proof.lean ====
/-
  A two-layer dense graph convolution with a row-wise log-softmax, computed by ONE pipelined call over a grid of two
  passes of fifty points, against the plain jnp formulas.

  Both programs compute  hidden = max (A · (X · W₁) + b₁, 0)  and the log-softmax of  A · (hidden · W₂) + b₂ .  The
  call computes X · W₁ once and keeps it; its first pass streams the adjacency's row blocks, producing the hidden
  layer block by block and, beside it, hidden · W₂ assembled row block by row block; its second pass streams the
  adjacency again, in descending block order, producing the output. The hidden layer's last block is not written
  back when it is computed but after the last point of the second pass, which stores nothing there: what is written
  is what the buffer has kept since the first pass.

  At the ideal instance each side's results are finite sums over the argument arrays. The hidden layers are the same
  formula. The log-softmax is written in two arrangements — the kernel adds the row maximum back to the log of the
  shifted sum and subtracts once, the reference shifts the row first — which agree as soon as the logits are finite,
  and they are when every input is finite: this is where the precondition is used.

  The idealization rewrote no operation, so `preserves` asks nothing.
-/
import proofs.«150757_g22213570854912_cont_8to1_1494_15_alg».proof.Defs
import proofs.«150757_g22213570854912_cont_8to1_1494_15_alg».proof.Proof.Gen.Kernel
import proofs.«150757_g22213570854912_cont_8to1_1494_15_alg».proof.Proof.Gen.KernelIdeal
import proofs.«150757_g22213570854912_cont_8to1_1494_15_alg».proof.Proof.Gen.ReferenceIdeal
import proofs.«150757_g22213570854912_cont_8to1_1494_15_alg».proof.Proof.Gen.Pre_finite_inputs
import proofs.«150757_g22213570854912_cont_8to1_1494_15_alg».proof.Proof.Kernel.Body
import proofs.«150757_g22213570854912_cont_8to1_1494_15_alg».proof.Proof.KernelIdeal.Named
import proofs.«150757_g22213570854912_cont_8to1_1494_15_alg».proof.Proof.KernelIdeal.ValuesOut
import proofs.«150757_g22213570854912_cont_8to1_1494_15_alg».proof.Proof.RefValues
import proofs.«150757_g22213570854912_cont_8to1_1494_15_alg».proof.Proof.ConvLaws
import proofs.«150757_g22213570854912_cont_8to1_1494_15_alg».proof.Proof.RealInputs
import Idealize.ShloMosaic.Adequacy
import Idealize.ShloMosaic.Init

noncomputable section

namespace Cert.Proof

open Idealize.ShloMosaic Idealize.ShloMosaic.TcCoe Idealize.SL.Sem Cert.Conv

theorem frame_kernel : Cert.frame_Kernel := fun m ρ _ => Cert.Kernel.Conv.frame m ρ

theorem frame_kernelIdeal : Cert.frame_KernelIdeal := fun m ρ _ => Cert.KernelIdeal.Conv.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with the same two arrays: the hidden layers are one formula, and the two arrangements of the
    log-softmax agree because under the precondition every logit and every row maximum is a real number. -/
theorem algebraic : Cert.algebraic_KernelIdeal_ReferenceIdeal := by
  intro m ρ m' ρ' hpre hagree
  refine ⟨fun c => Cert.KernelIdeal.Conv.outArr m c, fun c => Cert.KernelIdeal.Conv.hidArr m c,
    Cert.KernelIdeal.Conv.run_named m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5⟩ := real_of_finite_inputs _ _ _ _ _ _ (hpre c)
    funext y
    show Cert.ReferenceIdeal.ValueP.res_main_v12 m' c y = Cert.KernelIdeal.Conv.outArr m c y
    rw [Cert.ReferenceIdeal.ReadP.val_main_v12_eq, Cert.ReferenceIdeal.Closed.ref_out,
      (hagree c).1, (hagree c).2.1, (hagree c).2.2.1, (hagree c).2.2.2.1, (hagree c).2.2.2.2.1, (hagree c).2.2.2.2.2,
      Cert.KernelIdeal.Conv.outArr_apply]
    exact (logSoftmax_forms_agree _ _ _ _ _ _ (fun r f => h0 _) (fun r k => h1 _) (fun f j => h2 _) (fun j => h3 _)
      (fun l j => h4 _) (fun j => h5 _) _ _).symm
  · funext y
    show _ = Cert.KernelIdeal.Conv.hidArr m c y
    rw [Cert.ReferenceIdeal.ReadP.val_main_v6_eq, Cert.ReferenceIdeal.Closed.ref_hid,
      (hagree c).1, (hagree c).2.1, (hagree c).2.2.1, (hagree c).2.2.2.1, Cert.KernelIdeal.Conv.hidArr_apply]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
